-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x1433 : Shape := ⟨2, ![30000, 1433]⟩
abbrev S480000 : Shape := ⟨1, ![480000]⟩
abbrev S1433x512 : Shape := ⟨2, ![1433, 512]⟩
abbrev S512 : Shape := ⟨1, ![512]⟩
abbrev S512x128 : Shape := ⟨2, ![512, 128]⟩
abbrev S128 : Shape := ⟨1, ![128]⟩
abbrev S128x7 : Shape := ⟨2, ![128, 7]⟩
abbrev S7 : Shape := ⟨1, ![7]⟩
abbrev S_ : Shape := ⟨0, ![]⟩

class Facts : Prop where
  bcast_S_S30000x1433 : S_.BroadcastsInDim S30000x1433 (![] : Fin 0 → Fin S30000x1433.rank)
  reducesTo_S30000x1433_S_d0_1 : S30000x1433.ReducesTo [0, 1] S_
  h_S_ : 0 < S_.numel
  bcast_S_S480000 : S_.BroadcastsInDim S480000 (![] : Fin 0 → Fin S480000.rank)
  reducesTo_S480000_S_d0 : S480000.ReducesTo [0] S_
  bcast_S_S1433x512 : S_.BroadcastsInDim S1433x512 (![] : Fin 0 → Fin S1433x512.rank)
  reducesTo_S1433x512_S_d0_1 : S1433x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x7 : S_.BroadcastsInDim S128x7 (![] : Fin 0 → Fin S128x7.rank)
  reducesTo_S128x7_S_d0_1 : S128x7.ReducesTo [0, 1] S_
  bcast_S_S7 : S_.BroadcastsInDim S7 (![] : Fin 0 → Fin S7.rank)
  reducesTo_S7_S_d0 : S7.ReducesTo [0] S_

variable [Facts]

def fn_part2 {F : FTy → Type} [FloatOps F] (main_arg9 : FVec F S7 .f32) (main_v33 : IVec S_ 1) : IVec S_ 1 :=
  let main_v34 : FVec F S7 .f32 := Host.absf main_arg9
  let main_cst_12 : FVec F S_ .f32 := constant S_ .f32 0x7F800000#32
  let main_v35 : FVec F S7 .f32 := broadcastInDim S7 ![] bcast_S_S7 main_cst_12
  let main_v36 : IVec S7 1 := cmpf .olt main_v34 main_v35
  let main_c_13 : IVec S_ 1 := constantI S_ 1 1#1
  let main_v37 : IVec S_ 1 := (fun x v => Host.reduce IntOp.andi x v reducesTo_S7_S_d0 h_S_) main_v36 main_c_13
  let main_v38 : IVec S_ 1 := andi main_v33 main_v37
  main_v38

def fn_part1 {F : FTy → Type} [FloatOps F] (main_arg6 : FVec F S512x128 .f32) (main_arg7 : FVec F S128 .f32) (main_arg8 : FVec F S128x7 .f32) (main_arg9 : FVec F S7 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x128 .f32 := Host.absf main_arg6
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x7 .f32 := Host.absf main_arg8
  let main_cst_10 : FVec F S_ .f32 := constant S_ .f32 0x7F800000#32
  let main_v30 : FVec F S128x7 .f32 := broadcastInDim S128x7 ![] bcast_S_S128x7 main_cst_10
  let main_v31 : IVec S128x7 1 := cmpf .olt main_v29 main_v30
  let main_c_11 : IVec S_ 1 := constantI S_ 1 1#1
  let main_v32 : IVec S_ 1 := (fun x v => Host.reduce IntOp.andi x v reducesTo_S128x7_S_d0_1 h_S_) main_v31 main_c_11
  let main_v33 : IVec S_ 1 := andi main_v28 main_v32
  fn_part2 (F := F) main_arg9 main_v33

def fn {F : FTy → Type} [FloatOps F] (main_arg0 : FVec F S30000x1433 .f32) (main_arg1 : IVec S480000 32) (main_arg2 : IVec S480000 32) (main_arg3 : FVec F S480000 .f32) (main_arg4 : FVec F S1433x512 .f32) (main_arg5 : FVec F S512 .f32) (main_arg6 : FVec F S512x128 .f32) (main_arg7 : FVec F S128 .f32) (main_arg8 : FVec F S128x7 .f32) (main_arg9 : FVec F S7 .f32) : IVec S_ 1 :=
  let main_v0 : FVec F S30000x1433 .f32 := Host.absf main_arg0
  let main_cst : FVec F S_ .f32 := constant S_ .f32 0x7F800000#32
  let main_v1 : FVec F S30000x1433 .f32 := broadcastInDim S30000x1433 ![] bcast_S_S30000x1433 main_cst
  let main_v2 : IVec S30000x1433 1 := cmpf .olt main_v0 main_v1
  let main_c : IVec S_ 1 := constantI S_ 1 1#1
  let main_v3 : IVec S_ 1 := (fun x v => Host.reduce IntOp.andi x v reducesTo_S30000x1433_S_d0_1 h_S_) main_v2 main_c
  let main_v4 : FVec F S480000 .f32 := Host.absf main_arg3
  let main_cst_0 : FVec F S_ .f32 := constant S_ .f32 0x7F800000#32
  let main_v5 : FVec F S480000 .f32 := broadcastInDim S480000 ![] bcast_S_S480000 main_cst_0
  let main_v6 : IVec S480000 1 := cmpf .olt main_v4 main_v5
  let main_c_1 : IVec S_ 1 := constantI S_ 1 1#1
  let main_v7 : IVec S_ 1 := (fun x v => Host.reduce IntOp.andi x v reducesTo_S480000_S_d0 h_S_) main_v6 main_c_1
  let main_v8 : IVec S_ 1 := andi main_v3 main_v7
  let main_v9 : FVec F S1433x512 .f32 := Host.absf main_arg4
  let main_cst_2 : FVec F S_ .f32 := constant S_ .f32 0x7F800000#32
  let main_v10 : FVec F S1433x512 .f32 := broadcastInDim S1433x512 ![] bcast_S_S1433x512 main_cst_2
  let main_v11 : IVec S1433x512 1 := cmpf .olt main_v9 main_v10
  let main_c_3 : IVec S_ 1 := constantI S_ 1 1#1
  let main_v12 : IVec S_ 1 := (fun x v => Host.reduce IntOp.andi x v reducesTo_S1433x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_arg7 main_arg8 main_arg9 main_v13 main_v16
-- ==== Kernel.lean ====
abbrev S30000x1433 : Shape := ⟨2, ![30000, 1433]⟩
abbrev S480000 : Shape := ⟨1, ![480000]⟩
abbrev S1433x512 : Shape := ⟨2, ![1433, 512]⟩
abbrev S512 : Shape := ⟨1, ![512]⟩
abbrev S512x128 : Shape := ⟨2, ![512, 128]⟩
abbrev S128 : Shape := ⟨1, ![128]⟩
abbrev S128x7 : Shape := ⟨2, ![128, 7]⟩
abbrev S7 : Shape := ⟨1, ![7]⟩
abbrev S_ : Shape := ⟨0, ![]⟩
abbrev S1x512 : Shape := ⟨2, ![1, 512]⟩
abbrev S30000x512 : Shape := ⟨2, ![30000, 512]⟩
abbrev S600x1433 : Shape := ⟨2, ![600, 1433]⟩
abbrev S600x512 : Shape := ⟨2, ![600, 512]⟩
abbrev S480000x1 : Shape := ⟨2, ![480000, 1]⟩
abbrev S480000x512 : Shape := ⟨2, ![480000, 512]⟩
abbrev S1x128 : Shape := ⟨2, ![1, 128]⟩
abbrev S30000x128 : Shape := ⟨2, ![30000, 128]⟩
abbrev S600x128 : Shape := ⟨2, ![600, 128]⟩
abbrev S480000x128 : Shape := ⟨2, ![480000, 128]⟩
abbrev S1x7 : Shape := ⟨2, ![1, 7]⟩
abbrev S30000x7 : Shape := ⟨2, ![30000, 7]⟩
abbrev S600x7 : Shape := ⟨2, ![600, 7]⟩

abbrev nBuf : Space → Nat
  | .hbm => 56
  | .vmem => 28
  | .smem => 0
  | _ => 0

abbrev bufTy : (tb : Table) → Fin (tcTables nBuf tb) → BufTy
  | .hbm, ⟨0, _⟩ => ⟨S30000x1433, .f32⟩
  | .hbm, ⟨1, _⟩ => ⟨S480000, .i32⟩
  | .hbm, ⟨2, _⟩ => ⟨S480000, .i32⟩
  | .hbm, ⟨3, _⟩ => ⟨S480000, .f32⟩
  | .hbm, ⟨4, _⟩ => ⟨S1433x512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S128x7, .f32⟩
  | .hbm, ⟨9, _⟩ => ⟨S7, .f32⟩
  | .hbm, ⟨10, _⟩ => ⟨S_, .f32⟩
  | .hbm, ⟨11, _⟩ => ⟨S512, .f32⟩
  | .hbm, ⟨12, _⟩ => ⟨S_, .f32⟩
  | .hbm, ⟨13, _⟩ => ⟨S128, .f32⟩
  | .hbm, ⟨14, _⟩ => ⟨S1x512, .f32⟩
  | .hbm, ⟨15, _⟩ => ⟨S30000x512, .f32⟩
  | .hbm, ⟨16, _⟩ => ⟨S480000x1, .f32⟩
  | .hbm, ⟨17, _⟩ => ⟨S_, .i32⟩
  | .hbm, ⟨18, _⟩ => ⟨S480000, .i32⟩
  | .hbm, ⟨19, _⟩ => ⟨S480000, .i1⟩
  | .hbm, ⟨20, _⟩ => ⟨S_, .i32⟩
  | .hbm, ⟨21, _⟩ => ⟨S480000, .i32⟩
  | .hbm, ⟨22, _⟩ => ⟨S480000, .i32⟩
  | .hbm, ⟨23, _⟩ => ⟨S480000, .i32⟩
  | .hbm, ⟨24, _⟩ => ⟨S480000x1, .i32⟩
  | .hbm, ⟨25, _⟩ => ⟨S480000x512, .f32⟩
  | .hbm, ⟨26, _⟩ => ⟨S480000x512, .f32⟩
  | .hbm, ⟨27, _⟩ => ⟨S480000x512, .f32⟩
  | .hbm, ⟨28, _⟩ => ⟨S_, .f32⟩
  | .hbm, ⟨29, _⟩ => ⟨S30000x512, .f32⟩
  | .hbm, ⟨30, _⟩ => ⟨S480000x1, .i32⟩
  | .hbm, ⟨31, _⟩ => ⟨S30000x512, .f32⟩
  | .hbm, ⟨32, _⟩ => ⟨S1x512, .f32⟩
  | .hbm, ⟨33, _⟩ => ⟨S30000x512, .f32⟩
  | .hbm, ⟨34, _⟩ => ⟨S1x128, .f32⟩
  | .hbm, ⟨35, _⟩ => ⟨S30000x128, .f32⟩
  | .hbm, ⟨36, _⟩ => ⟨S480000x1, .f32⟩
  | .hbm, ⟨37, _⟩ => ⟨S_, .i32⟩
  | .hbm, ⟨38, _⟩ => ⟨S480000, .i32⟩
  | .hbm, ⟨39, _⟩ => ⟨S480000, .i1⟩
  | .hbm, ⟨40, _⟩ => ⟨S_, .i32⟩
  | .hbm, ⟨41, _⟩ => ⟨S480000, .i32⟩
  | .hbm, ⟨42, _⟩ => ⟨S480000, .i32⟩
  | .hbm, ⟨43, _⟩ => ⟨S480000, .i32⟩
  | .hbm, ⟨44, _⟩ => ⟨S480000x1, .i32⟩
  | .hbm, ⟨45, _⟩ => ⟨S480000x128, .f32⟩
  | .hbm, ⟨46, _⟩ => ⟨S480000x128, .f32⟩
  | .hbm, ⟨47, _⟩ => ⟨S480000x128, .f32⟩
  | .hbm, ⟨48, _⟩ => ⟨S_, .f32⟩
  | .hbm, ⟨49, _⟩ => ⟨S30000x128, .f32⟩
  | .hbm, ⟨50, _⟩ => ⟨S480000x1, .i32⟩
  | .hbm, ⟨51, _⟩ => ⟨S30000x128, .f32⟩
  | .hbm, ⟨52, _⟩ => ⟨S1x128, .f32⟩
  | .hbm, ⟨53, _⟩ => ⟨S30000x128, .f32⟩
  | .hbm, ⟨54, _⟩ => ⟨S1x7, .f32⟩
  | .hbm, ⟨55, _⟩ => ⟨S30000x7, .f32⟩
  | .local _ .vmem, ⟨0, _⟩ => ⟨S600x1433, .f32⟩
  | .local _ .vmem, ⟨1, _⟩ => ⟨S600x1433, .f32⟩
  | .local _ .vmem, ⟨2, _⟩ => ⟨S1433x512, .f32⟩
  | .local _ .vmem, ⟨3, _⟩ => ⟨S1x512, .f32⟩
  | .local _ .vmem, ⟨4, _⟩ => ⟨S600x512, .f32⟩
  | .local _ .vmem, ⟨5, _⟩ => ⟨S600x512, .f32⟩
  | .local _ .vmem, ⟨6, _⟩ => ⟨S600x512, .f32⟩
  | .local _ .vmem, ⟨7, _⟩ => ⟨S600x512, .f32⟩
  | .local _ .vmem, ⟨8, _⟩ => ⟨S1x512, .f32⟩
  | .local _ .vmem, ⟨9, _⟩ => ⟨S600x512, .f32⟩
  | .local _ .vmem, ⟨10, _⟩ => ⟨S600x512, .f32⟩
  | .local _ .vmem, ⟨11, _⟩ => ⟨S600x512, .f32⟩
  | .local _ .vmem, ⟨12, _⟩ => ⟨S600x512, .f32⟩
  | .local _ .vmem, ⟨13, _⟩ => ⟨S512x128, .f32⟩
  | .local _ .vmem, ⟨14, _⟩ => ⟨S1x128, .f32⟩
  | .local _ .vmem, ⟨15, _⟩ => ⟨S600x128, .f32⟩
  | .local _ .vmem, ⟨16, _⟩ => ⟨S600x128, .f32⟩
  | .local _ .vmem, ⟨17, _⟩ => ⟨S600x128, .f32⟩
  | .local _ .vmem, ⟨18, _⟩ => ⟨S600x128, .f32⟩
  | .local _ .vmem, ⟨19, _⟩ => ⟨S1x128, .f32⟩
  | .local _ .vmem, ⟨20, _⟩ => ⟨S600x128, .f32⟩
  | .local _ .vmem, ⟨21, _⟩ => ⟨S600x128, .f32⟩
  | .local _ .vmem, ⟨22, _⟩ => ⟨S600x128, .f32⟩
  | .local _ .vmem, ⟨23, _⟩ => ⟨S600x128, .f32⟩
  | .local _ .vmem, ⟨24, _⟩ => ⟨S128x7, .f32⟩
  | .local _ .vmem, ⟨25, _⟩ => ⟨S1x7, .f32⟩
  | .local _ .vmem, ⟨26, _⟩ => ⟨S600x7, .f32⟩
  | .local _ .vmem, ⟨27, _⟩ => ⟨S600x7, .f32⟩
  | _, _ => ⟨S30000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S600x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S600x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S600x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S600x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S600x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S600x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S600x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S600x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S600x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x7 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x7 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S600x7 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bcast_S_S512 : S_.BroadcastsInDim S512 (![] : Fin 0 → Fin S512.rank)
  bcast_S_S128 : S_.BroadcastsInDim S128 (![] : Fin 0 → Fin S128.rank)
  shapeCasts_S512_S1x512 : S512.ShapeCasts S1x512
  inb_S600x1433_S600x1433_0_0 : ∀ a, (![0, 0] : Fin 2 → Nat) a + S600x1433.size a ≤ S600x1433.size a
  h_S600x1433 : 0 < S600x1433.numel
  bitsLt_bf16_f32 : FTy.bits .bf16 < FTy.bits .f32
  inb_S1433x512_S1433x512_0_0 : ∀ a, (![0, 0] : Fin 2 → Nat) a + S1433x512.size a ≤ S1433x512.size a
  h_S1433x512 : 0 < S1433x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S600x512 : S1x512.Broadcasts S600x512
  inb_S600x512_S600x512_0_0 : ∀ a, (![0, 0] : Fin 2 → Nat) a + S600x512.size a ≤ S600x512.size a
  h_S600x512 : 0 < S600x512.numel
  bcast_S480000_S480000x1_0 : S480000.BroadcastsInDim S480000x1 (![0] : Fin 1 → Fin S480000x1.rank)
  bcast_S_S480000 : S_.BroadcastsInDim S480000 (![] : Fin 0 → Fin S480000.rank)
  bcast_S480000x1_S480000x512_0_1 : S480000x1.BroadcastsInDim S480000x512 (![0, 1] : Fin 2 → Fin S480000x512.rank)
  bcast_S_S30000x512 : S_.BroadcastsInDim S30000x512 (![] : Fin 0 → Fin S30000x512.rank)
  shapeCasts_S600x512_S600x512 : S600x512.ShapeCasts S600x512
  shapeCasts_S128_S1x128 : S128.ShapeCasts S1x128
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S600x128 : S1x128.Broadcasts S600x128
  inb_S600x128_S600x128_0_0 : ∀ a, (![0, 0] : Fin 2 → Nat) a + S600x128.size a ≤ S600x128.size a
  h_S600x128 : 0 < S600x128.numel
  bcast_S480000x1_S480000x128_0_1 : S480000x1.BroadcastsInDim S480000x128 (![0, 1] : Fin 2 → Fin S480000x128.rank)
  bcast_S_S30000x128 : S_.BroadcastsInDim S30000x128 (![] : Fin 0 → Fin S30000x128.rank)
  shapeCasts_S600x128_S600x128 : S600x128.ShapeCasts S600x128
  shapeCasts_S7_S1x7 : S7.ShapeCasts S1x7
  inb_S128x7_S128x7_0_0 : ∀ a, (![0, 0] : Fin 2 → Nat) a + S128x7.size a ≤ S128x7.size a
  h_S128x7 : 0 < S128x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S600x7 : S1x7.Broadcasts S600x7
  inb_S600x7_S600x7_0_0 : ∀ a, (![0, 0] : Fin 2 → Nat) a + S600x7.size a ≤ S600x7.size a
  h_S600x7 : 0 < S600x7.numel
  dot_S600x1433_S1433x512_S600x512_1_0_0_1_n_n_wf : DotDims.WF S600x1433 S1433x512 S600x512 [1] [0] [0] [1] [] []
  gather_S30000x512_S480000x1_S480000x512_1_0_n_n_0_1_1512_wf : GatherDims.WF S30000x512 S480000x1 S480000x512 [1] [0] [] [0] [] 1 ![1, 512]
  scatter_S30000x512_S480000x1_S480000x512_1_0_0_1_wf : ScatterDims.WF S30000x512 S480000x1 S480000x512 [1] [0] [0] 1
  dot_S600x512_S512x128_S600x128_1_0_0_1_n_n_wf : DotDims.WF S600x512 S512x128 S600x128 [1] [0] [0] [1] [] []
  gather_S30000x128_S480000x1_S480000x128_1_0_n_n_0_1_1128_wf : GatherDims.WF S30000x128 S480000x1 S480000x128 [1] [0] [] [0] [] 1 ![1, 128]
  scatter_S30000x128_S480000x1_S480000x128_1_0_0_1_wf : ScatterDims.WF S30000x128 S480000x1 S480000x128 [1] [0] [0] 1
  dot_S600x128_S128x7_S600x7_1_0_0_1_n_n_wf : DotDims.WF S600x128 S128x7 S600x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S600x1433.size a ≤ S30000x1433.size a
  hwx0_0 : ∀ i : grid0.Coords, EltTy.bits .f32 = 32 ∨ (Rect.block (s := S30000x1433) S600x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x512.size a ≤ S1433x512.size a
  hwx0_1 : ∀ i : grid0.Coords, EltTy.bits .f32 = 32 ∨ (Rect.block (s := S1433x512) S1433x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S600x512.size a ≤ S30000x512.size a
  hwx0_3 : ∀ i : grid0.Coords, EltTy.bits .f32 = 32 ∨ (Rect.block (s := S30000x512) S600x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S600x512.size a ≤ S30000x512.size a
  hwx1_0 : ∀ i : grid1.Coords, EltTy.bits .f32 = 32 ∨ (Rect.block (s := S30000x512) S600x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S600x512.size a ≤ S30000x512.size a
  hwx1_2 : ∀ i : grid1.Coords, EltTy.bits .f32 = 32 ∨ (Rect.block (s := S30000x512) S600x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S600x512.size a ≤ S30000x512.size a
  hwx2_0 : ∀ i : grid2.Coords, EltTy.bits .f32 = 32 ∨ (Rect.block (s := S30000x512) S600x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x128.size a ≤ S512x128.size a
  hwx2_1 : ∀ i : grid2.Coords, EltTy.bits .f32 = 32 ∨ (Rect.block (s := S512x128) S512x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S600x128.size a ≤ S30000x128.size a
  hwx2_3 : ∀ i : grid2.Coords, EltTy.bits .f32 = 32 ∨ (Rect.block (s := S30000x128) S600x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S600x128.size a ≤ S30000x128.size a
  hwx3_0 : ∀ i : grid3.Coords, EltTy.bits .f32 = 32 ∨ (Rect.block (s := S30000x128) S600x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S600x128.size a ≤ S30000x128.size a
  hwx3_2 : ∀ i : grid3.Coords, EltTy.bits .f32 = 32 ∨ (Rect.block (s := S30000x128) S600x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S600x128.size a ≤ S30000x128.size a
  hwx4_0 : ∀ i : grid4.Coords, EltTy.bits .f32 = 32 ∨ (Rect.block (s := S30000x128) S600x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x7.size a ≤ S128x7.size a
  hwx4_1 : ∀ i : grid4.Coords, EltTy.bits .f32 = 32 ∨ (Rect.block (s := S128x7) S128x7.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x7.size a ≤ S1x7.size a
  hwx4_2 : ∀ i : grid4.Coords, EltTy.bits .f32 = 32 ∨ (Rect.block (s := S1x7) S1x7.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S600x7.size a ≤ S30000x7.size a
  hwx4_3 : ∀ i : grid4.Coords, EltTy.bits .f32 = 32 ∨ (Rect.block (s := S30000x7) S600x7.size (cc4_transform_3 i) (hinb4_3 i)).WholeWords (EltTy.packing .f32)

variable [Facts₀]

def dot_S600x1433_S1433x512_S600x512_1_0_0_1_n_n : DotDims S600x1433 S1433x512 S600x512 where
  lhsContracting := [1]
  rhsContracting := [0]
  lhsNonContracting := [0]
  rhsNonContracting := [1]
  lhsBatch := []
  rhsBatch := []
  wf := dot_S600x1433_S1433x512_S600x512_1_0_0_1_n_n_wf
def gather_S30000x512_S480000x1_S480000x512_1_0_n_n_0_1_1512 : GatherDims S30000x512 S480000x1 S480000x512 where
  offsetDims := [1]
  collapsedSliceDims := [0]
  operandBatchingDims := []
  startIndicesBatchingDims := []
  startIndexMap := [0]
  indexVectorDim := 1
  sliceSizes := ![1, 512]
  wf := gather_S30000x512_S480000x1_S480000x512_1_0_n_n_0_1_1512_wf
def scatter_S30000x512_S480000x1_S480000x512_1_0_0_1 : ScatterDims S30000x512 S480000x1 S480000x512 where
  updateWindowDims := [1]
  insertedWindowDims := [0]
  scatterDimsToOperandDims := [0]
  indexVectorDim := 1
  wf := scatter_S30000x512_S480000x1_S480000x512_1_0_0_1_wf
def dot_S600x512_S512x128_S600x128_1_0_0_1_n_n : DotDims S600x512 S512x128 S600x128 where
  lhsContracting := [1]
  rhsContracting := [0]
  lhsNonContracting := [0]
  rhsNonContracting := [1]
  lhsBatch := []
  rhsBatch := []
  wf := dot_S600x512_S512x128_S600x128_1_0_0_1_n_n_wf
def gather_S30000x128_S480000x1_S480000x128_1_0_n_n_0_1_1128 : GatherDims S30000x128 S480000x1 S480000x128 where
  offsetDims := [1]
  collapsedSliceDims := [0]
  operandBatchingDims := []
  startIndicesBatchingDims := []
  startIndexMap := [0]
  indexVectorDim := 1
  sliceSizes := ![1, 128]
  wf := gather_S30000x128_S480000x1_S480000x128_1_0_n_n_0_1_1128_wf
def scatter_S30000x128_S480000x1_S480000x128_1_0_0_1 : ScatterDims S30000x128 S480000x1 S480000x128 where
  updateWindowDims := [1]
  insertedWindowDims := [0]
  scatterDimsToOperandDims := [0]
  indexVectorDim := 1
  wf := scatter_S30000x128_S480000x1_S480000x128_1_0_0_1_wf
def dot_S600x128_S128x7_S600x7_1_0_0_1_n_n : DotDims S600x128 S128x7 S600x7 where
  lhsContracting := [1]
  rhsContracting := [0]
  lhsNonContracting := [0]
  rhsNonContracting := [1]
  lhsBatch := []
  rhsBatch := []
  wf := dot_S600x128_S128x7_S600x7_1_0_0_1_n_n_wf

abbrev win0_0 : Pipeline.Window sig grid0 :=
  Pipeline.Window.ofSpec (Memref.whole main_arg0) S600x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1433x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S600x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S600x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S600x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v18) S600x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S512x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S600x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v33) S600x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v35) S600x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v35) S600x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x7.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v36) S1x7.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v37) S600x7.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S30000x1433 : Shape := ⟨2, ![30000, 1433]⟩
abbrev S480000 : Shape := ⟨1, ![480000]⟩
abbrev S1433x512 : Shape := ⟨2, ![1433, 512]⟩
abbrev S512 : Shape := ⟨1, ![512]⟩
abbrev S512x128 : Shape := ⟨2, ![512, 128]⟩
abbrev S128 : Shape := ⟨1, ![128]⟩
abbrev S128x7 : Shape := ⟨2, ![128, 7]⟩
abbrev S7 : Shape := ⟨1, ![7]⟩
abbrev S30000x512 : Shape := ⟨2, ![30000, 512]⟩
abbrev S480000x1 : Shape := ⟨2, ![480000, 1]⟩
abbrev S_ : Shape := ⟨0, ![]⟩
abbrev S480000x512 : Shape := ⟨2, ![480000, 512]⟩
abbrev S1x512 : Shape := ⟨2, ![1, 512]⟩
abbrev S30000x128 : Shape := ⟨2, ![30000, 128]⟩
abbrev S480000x128 : Shape := ⟨2, ![480000, 128]⟩
abbrev S1x128 : Shape := ⟨2, ![1, 128]⟩
abbrev S30000x7 : Shape := ⟨2, ![30000, 7]⟩
abbrev S1x7 : Shape := ⟨2, ![1, 7]⟩

abbrev nBuf : Space → Nat
  | .hbm => 70
  | .vmem => 0
  | .smem => 0
  | _ => 0

abbrev bufTy : (tb : Table) → Fin (tcTables nBuf tb) → BufTy
  | .hbm, ⟨0, _⟩ => ⟨S30000x1433, .f32⟩
  | .hbm, ⟨1, _⟩ => ⟨S480000, .i32⟩
  | .hbm, ⟨2, _⟩ => ⟨S480000, .i32⟩
  | .hbm, ⟨3, _⟩ => ⟨S480000, .f32⟩
  | .hbm, ⟨4, _⟩ => ⟨S1433x512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S128x7, .f32⟩
  | .hbm, ⟨9, _⟩ => ⟨S7, .f32⟩
  | .hbm, ⟨10, _⟩ => ⟨S30000x512, .f32⟩
  | .hbm, ⟨11, _⟩ => ⟨S480000x1, .f32⟩
  | .hbm, ⟨12, _⟩ => ⟨S_, .i32⟩
  | .hbm, ⟨13, _⟩ => ⟨S480000, .i32⟩
  | .hbm, ⟨14, _⟩ => ⟨S480000, .i1⟩
  | .hbm, ⟨15, _⟩ => ⟨S_, .i32⟩
  | .hbm, ⟨16, _⟩ => ⟨S480000, .i32⟩
  | .hbm, ⟨17, _⟩ => ⟨S480000, .i32⟩
  | .hbm, ⟨18, _⟩ => ⟨S480000, .i32⟩
  | .hbm, ⟨19, _⟩ => ⟨S480000x1, .i32⟩
  | .hbm, ⟨20, _⟩ => ⟨S480000x512, .f32⟩
  | .hbm, ⟨21, _⟩ => ⟨S480000x512, .f32⟩
  | .hbm, ⟨22, _⟩ => ⟨S480000x512, .f32⟩
  | .hbm, ⟨23, _⟩ => ⟨S_, .f32⟩
  | .hbm, ⟨24, _⟩ => ⟨S30000x512, .f32⟩
  | .hbm, ⟨25, _⟩ => ⟨S480000x1, .i32⟩
  | .hbm, ⟨26, _⟩ => ⟨S30000x512, .f32⟩
  | .hbm, ⟨27, _⟩ => ⟨S1x512, .f32⟩
  | .hbm, ⟨28, _⟩ => ⟨S30000x512, .f32⟩
  | .hbm, ⟨29, _⟩ => ⟨S30000x512, .f32⟩
  | .hbm, ⟨30, _⟩ => ⟨S_, .f32⟩
  | .hbm, ⟨31, _⟩ => ⟨S_, .f32⟩
  | .hbm, ⟨32, _⟩ => ⟨S30000x512, .f32⟩
  | .hbm, ⟨33, _⟩ => ⟨S30000x512, .i1⟩
  | .hbm, ⟨34, _⟩ => ⟨S_, .f32⟩
  | .hbm, ⟨35, _⟩ => ⟨S30000x512, .f32⟩
  | .hbm, ⟨36, _⟩ => ⟨S30000x512, .f32⟩
  | .hbm, ⟨37, _⟩ => ⟨S30000x512, .f32⟩
  | .hbm, ⟨38, _⟩ => ⟨S30000x128, .f32⟩
  | .hbm, ⟨39, _⟩ => ⟨S480000x1, .f32⟩
  | .hbm, ⟨40, _⟩ => ⟨S_, .i32⟩
  | .hbm, ⟨41, _⟩ => ⟨S480000, .i32⟩
  | .hbm, ⟨42, _⟩ => ⟨S480000, .i1⟩
  | .hbm, ⟨43, _⟩ => ⟨S_, .i32⟩
  | .hbm, ⟨44, _⟩ => ⟨S480000, .i32⟩
  | .hbm, ⟨45, _⟩ => ⟨S480000, .i32⟩
  | .hbm, ⟨46, _⟩ => ⟨S480000, .i32⟩
  | .hbm, ⟨47, _⟩ => ⟨S480000x1, .i32⟩
  | .hbm, ⟨48, _⟩ => ⟨S480000x128, .f32⟩
  | .hbm, ⟨49, _⟩ => ⟨S480000x128, .f32⟩
  | .hbm, ⟨50, _⟩ => ⟨S480000x128, .f32⟩
  | .hbm, ⟨51, _⟩ => ⟨S_, .f32⟩
  | .hbm, ⟨52, _⟩ => ⟨S30000x128, .f32⟩
  | .hbm, ⟨53, _⟩ => ⟨S480000x1, .i32⟩
  | .hbm, ⟨54, _⟩ => ⟨S30000x128, .f32⟩
  | .hbm, ⟨55, _⟩ => ⟨S1x128, .f32⟩
  | .hbm, ⟨56, _⟩ => ⟨S30000x128, .f32⟩
  | .hbm, ⟨57, _⟩ => ⟨S30000x128, .f32⟩
  | .hbm, ⟨58, _⟩ => ⟨S_, .f32⟩
  | .hbm, ⟨59, _⟩ => ⟨S_, .f32⟩
  | .hbm, ⟨60, _⟩ => ⟨S30000x128, .f32⟩
  | .hbm, ⟨61, _⟩ => ⟨S30000x128, .i1⟩
  | .hbm, ⟨62, _⟩ => ⟨S_, .f32⟩
  | .hbm, ⟨63, _⟩ => ⟨S30000x128, .f32⟩
  | .hbm, ⟨64, _⟩ => ⟨S30000x128, .f32⟩
  | .hbm, ⟨65, _⟩ => ⟨S30000x128, .f32⟩
  | .hbm, ⟨66, _⟩ => ⟨S30000x7, .f32⟩
  | .hbm, ⟨67, _⟩ => ⟨S1x7, .f32⟩
  | .hbm, ⟨68, _⟩ => ⟨S30000x7, .f32⟩
  | .hbm, ⟨69, _⟩ => ⟨S30000x7, .f32⟩
  | _, _ => ⟨S30000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_2 : Ref sig .tc := ⟨.hbm, 40, rfl⟩
abbrev main_v20 : Ref sig .tc := ⟨.hbm, 41, rfl⟩
abbrev main_v21 : Ref sig .tc := ⟨.hbm, 42, rfl⟩
abbrev main_c_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_call1_cst : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩

abbrev nD : Nat := 1
abbrev τ : Topo := Topo.v7x

variable {F : FTy → Type} [FloatOps F]

class Facts₀ : Prop where
  bcast_S480000_S480000x1_0 : S480000.BroadcastsInDim S480000x1 (![0] : Fin 1 → Fin S480000x1.rank)
  bcast_S_S480000 : S_.BroadcastsInDim S480000 (![] : Fin 0 → Fin S480000.rank)
  bcast_S480000x1_S480000x512_0_1 : S480000x1.BroadcastsInDim S480000x512 (![0, 1] : Fin 2 → Fin S480000x512.rank)
  bcast_S_S30000x512 : S_.BroadcastsInDim S30000x512 (![] : Fin 0 → Fin S30000x512.rank)
  bcast_S512_S1x512_1 : S512.BroadcastsInDim S1x512 (![1] : Fin 1 → Fin S1x512.rank)
  bcast_S1x512_S30000x512_0_1 : S1x512.BroadcastsInDim S30000x512 (![0, 1] : Fin 2 → Fin S30000x512.rank)
  bcast_S480000x1_S480000x128_0_1 : S480000x1.BroadcastsInDim S480000x128 (![0, 1] : Fin 2 → Fin S480000x128.rank)
  bcast_S_S30000x128 : S_.BroadcastsInDim S30000x128 (![] : Fin 0 → Fin S30000x128.rank)
  bcast_S128_S1x128_1 : S128.BroadcastsInDim S1x128 (![1] : Fin 1 → Fin S1x128.rank)
  bcast_S1x128_S30000x128_0_1 : S1x128.BroadcastsInDim S30000x128 (![0, 1] : Fin 2 → Fin S30000x128.rank)
  bcast_S7_S1x7_1 : S7.BroadcastsInDim S1x7 (![1] : Fin 1 → Fin S1x7.rank)
  bcast_S1x7_S30000x7_0_1 : S1x7.BroadcastsInDim S30000x7 (![0, 1] : Fin 2 → Fin S30000x7.rank)
  dot_S30000x1433_S1433x512_S30000x512_1_0_0_1_n_n_wf : DotDims.WF S30000x1433 S1433x512 S30000x512 [1] [0] [0] [1] [] []
  gather_S30000x512_S480000x1_S480000x512_1_0_n_n_0_1_1512_wf : GatherDims.WF S30000x512 S480000x1 S480000x512 [1] [0] [] [0] [] 1 ![1, 512]
  scatter_S30000x512_S480000x1_S480000x512_1_0_0_1_wf : ScatterDims.WF S30000x512 S480000x1 S480000x512 [1] [0] [0] 1
  dot_S30000x512_S512x128_S30000x128_1_0_0_1_n_n_wf : DotDims.WF S30000x512 S512x128 S30000x128 [1] [0] [0] [1] [] []
  gather_S30000x128_S480000x1_S480000x128_1_0_n_n_0_1_1128_wf : GatherDims.WF S30000x128 S480000x1 S480000x128 [1] [0] [] [0] [] 1 ![1, 128]
  scatter_S30000x128_S480000x1_S480000x128_1_0_0_1_wf : ScatterDims.WF S30000x128 S480000x1 S480000x128 [1] [0] [0] 1
  dot_S30000x128_S128x7_S30000x7_1_0_0_1_n_n_wf : DotDims.WF S30000x128 S128x7 S30000x7 [1] [0] [0] [1] [] []

variable [Facts₀]

def dot_S30000x1433_S1433x512_S30000x512_1_0_0_1_n_n : DotDims S30000x1433 S1433x512 S30000x512 where
  lhsContracting := [1]
  rhsContracting := [0]
  lhsNonContracting := [0]
  rhsNonContracting := [1]
  lhsBatch := []
  rhsBatch := []
  wf := dot_S30000x1433_S1433x512_S30000x512_1_0_0_1_n_n_wf
def gather_S30000x512_S480000x1_S480000x512_1_0_n_n_0_1_1512 : GatherDims S30000x512 S480000x1 S480000x512 where
  offsetDims := [1]
  collapsedSliceDims := [0]
  operandBatchingDims := []
  startIndicesBatchingDims := []
  startIndexMap := [0]
  indexVectorDim := 1
  sliceSizes := ![1, 512]
  wf := gather_S30000x512_S480000x1_S480000x512_1_0_n_n_0_1_1512_wf
def scatter_S30000x512_S480000x1_S480000x512_1_0_0_1 : ScatterDims S30000x512 S480000x1 S480000x512 where
  updateWindowDims := [1]
  insertedWindowDims := [0]
  scatterDimsToOperandDims := [0]
  indexVectorDim := 1
  wf := scatter_S30000x512_S480000x1_S480000x512_1_0_0_1_wf
def dot_S30000x512_S512x128_S30000x128_1_0_0_1_n_n : DotDims S30000x512 S512x128 S30000x128 where
  lhsContracting := [1]
  rhsContracting := [0]
  lhsNonContracting := [0]
  rhsNonContracting := [1]
  lhsBatch := []
  rhsBatch := []
  wf := dot_S30000x512_S512x128_S30000x128_1_0_0_1_n_n_wf
def gather_S30000x128_S480000x1_S480000x128_1_0_n_n_0_1_1128 : GatherDims S30000x128 S480000x1 S480000x128 where
  offsetDims := [1]
  collapsedSliceDims := [0]
  operandBatchingDims := []
  startIndicesBatchingDims := []
  startIndexMap := [0]
  indexVectorDim := 1
  sliceSizes := ![1, 128]
  wf := gather_S30000x128_S480000x1_S480000x128_1_0_n_n_0_1_1128_wf
def scatter_S30000x128_S480000x1_S480000x128_1_0_0_1 : ScatterDims S30000x128 S480000x1 S480000x128 where
  updateWindowDims := [1]
  insertedWindowDims := [0]
  scatterDimsToOperandDims := [0]
  indexVectorDim := 1
  wf := scatter_S30000x128_S480000x1_S480000x128_1_0_0_1_wf
def dot_S30000x128_S128x7_S30000x7_1_0_0_1_n_n : DotDims S30000x128 S128x7 S30000x7 where
  lhsContracting := [1]
  rhsContracting := [0]
  lhsNonContracting := [0]
  rhsNonContracting := [1]
  lhsBatch := []
  rhsBatch := []
  wf := dot_S30000x128_S128x7_S30000x7_1_0_0_1_n_n_wf

class Facts : Prop extends Facts₀ where

variable [Facts]
-- ==== Proof.Stages.lean ====
/-
  The network's stages as whole-array functions, spelt with the reference program's own host operations.

  A two-layer graph convolution with a linear head:
    t1 = x · W1;  a1 = A · t1;  h1 = lrelu (a1 + b1)
    t2 = h1 · W2; a2 = A · t2;  h2 = lrelu (a2 + b2)
    out = h2 · Wl + bl
  where `A · t` is the sparse product given by the edge list: row `d` of the result is the sum, over the edges
  `e` with destination `d`, of `w e` times row `src e` of `t` (a gather of rows, a scaling, a scatter-add), and
  `lrelu v = v` where `v ≥ 0` and `0.1 · v` elsewhere. A bias enters as a `[1, n]` row broadcast over the rows.
  Every function here is generic in the float instance; the value claims read them at the extended reals.
-/
import proofs.«114317_j19756849561729_1_alg».proof.ReferenceIdeal
import proofs.«114317_j19756849561729_1_alg».proof.Proof.Gen.ReferenceIdeal

noncomputable section

namespace Cert.Stages

open Idealize.ShloMosaic Cert.ReferenceIdeal Cert.ReferenceIdeal.Facts₀

variable {F : FTy → Type} [FloatOps F]

/-! ## The dense products -/

/-- `x · W1`: `[30000, 1433] × [1433, 512]`, the second axis of the left against the first of the right. -/
def dense1 (x : Vec F S30000x1433 .f32) (w : Vec F S1433x512 .f32) : Vec F S30000x512 .f32 :=
  Host.dotGeneral dot_S30000x1433_S1433x512_S30000x512_1_0_0_1_n_n none x w

/-- `h · W2`: `[30000, 512] × [512, 128]`. -/
def dense2 (h : Vec F S30000x512 .f32) (w : Vec F S512x128 .f32) : Vec F S30000x128 .f32 :=
  Host.dotGeneral dot_S30000x512_S512x128_S30000x128_1_0_0_1_n_n none h w

/-- `h · Wl`: `[30000, 128] × [128, 7]`. -/
def dense3 (h : Vec F S30000x128 .f32) (w : Vec F S128x7 .f32) : Vec F S30000x7 .f32 :=
  Host.dotGeneral dot_S30000x128_S128x7_S30000x7_1_0_0_1_n_n none h w

/-! ## A bias row added to every row -/

/-- A vector of `512` as the one row of a `[1, 512]` array. -/
def row512 (b : Vec F S512 .f32) : Vec F S1x512 .f32 := broadcastInDim S1x512 ![1] bcast_S512_S1x512_1 b
/-- A vector of `128` as the one row of a `[1, 128]` array. -/
def row128 (b : Vec F S128 .f32) : Vec F S1x128 .f32 := broadcastInDim S1x128 ![1] bcast_S128_S1x128_1 b
/-- A vector of `7` as the one row of a `[1, 7]` array. -/
def row7 (b : Vec F S7 .f32) : Vec F S1x7 .f32 := broadcastInDim S1x7 ![1] bcast_S7_S1x7_1 b

/-- `a + b`, the row `b` repeated over the `30000` rows. -/
def addRow512 (a : Vec F S30000x512 .f32) (b : Vec F S1x512 .f32) : Vec F S30000x512 .f32 :=
  addf a (broadcastInDim S30000x512 ![0, 1] bcast_S1x512_S30000x512_0_1 b)
def addRow128 (a : Vec F S30000x128 .f32) (b : Vec F S1x128 .f32) : Vec F S30000x128 .f32 :=
  addf a (broadcastInDim S30000x128 ![0, 1] bcast_S1x128_S30000x128_0_1 b)
def addRow7 (a : Vec F S30000x7 .f32) (b : Vec F S1x7 .f32) : Vec F S30000x7 .f32 :=
  addf a (broadcastInDim S30000x7 ![0, 1] bcast_S1x7_S30000x7_0_1 b)

/-! ## The leaky rectifier -/

/-- `v` where `v ≥ 0`, `0.1 · v` elsewhere (the slope the f32 nearest to one tenth). -/
def lrelu512 (v : Vec F S30000x512 .f32) : Vec F S30000x512 .f32 :=
  select (cmpf .oge v (broadcastInDim S30000x512 ![] bcast_S_S30000x512 (constant S_ .f32 0x00000000#32)))
    v (mulf (broadcastInDim S30000x512 ![] bcast_S_S30000x512 (id (constant S_ .f32 0x3DCCCCCD#32))) v)
def lrelu128 (v : Vec F S30000x128 .f32) : Vec F S30000x128 .f32 :=
  select (cmpf .oge v (broadcastInDim S30000x128 ![] bcast_S_S30000x128 (constant S_ .f32 0x00000000#32)))
    v (mulf (broadcastInDim S30000x128 ![] bcast_S_S30000x128 (id (constant S_ .f32 0x3DCCCCCD#32))) v)

/-- A layer's epilogue: the bias row added, then the rectifier. -/
def act512 (a : Vec F S30000x512 .f32) (b : Vec F S1x512 .f32) : Vec F S30000x512 .f32 := lrelu512 (addRow512 a b)
def act128 (a : Vec F S30000x128 .f32) (b : Vec F S1x128 .f32) : Vec F S30000x128 .f32 := lrelu128 (addRow128 a b)

/-! ## The sparse product by the edge list -/

/-- The source indices as the gather reads them: a negative index counted from the end (`+ 30000`), as one column. -/
def srcCol (src : IVec S480000 32) : IVec S480000x1 32 :=
  broadcastInDim S480000x1 ![0] bcast_S480000_S480000x1_0
    (select (cmpi .slt src (broadcastInDim S480000 ![] bcast_S_S480000 (constantI S_ 32 0#32)))
      (addi src (broadcastInDim S480000 ![] bcast_S_S480000 (constantI S_ 32 30000#32))) src)

/-- `A · t` at width `512`: rows of `t` gathered by source, scaled by the edge weight, summed into the destination rows
    of a zero array. -/
def spmm512 (src dst : IVec S480000 32) (ew : Vec F S480000 .f32) (t : Vec F S30000x512 .f32) : Vec F S30000x512 .f32 :=
  Host.scatterAdd scatter_S30000x512_S480000x1_S480000x512_1_0_0_1
    (broadcastInDim S30000x512 ![] bcast_S_S30000x512 (constant S_ .f32 0x00000000#32))
    (broadcastInDim S480000x1 ![0] bcast_S480000_S480000x1_0 dst)
    (mulf (broadcastInDim S480000x512 ![0, 1] bcast_S480000x1_S480000x512_0_1 (broadcastInDim S480000x1 ![0] bcast_S480000_S480000x1_0 ew))
      (Host.gather gather_S30000x512_S480000x1_S480000x512_1_0_n_n_0_1_1512 t (srcCol src)))

/-- `A · t` at width `128`. -/
def spmm128 (src dst : IVec S480000 32) (ew : Vec F S480000 .f32) (t : Vec F S30000x128 .f32) : Vec F S30000x128 .f32 :=
  Host.scatterAdd scatter_S30000x128_S480000x1_S480000x128_1_0_0_1
    (broadcastInDim S30000x128 ![] bcast_S_S30000x128 (constant S_ .f32 0x00000000#32))
    (broadcastInDim S480000x1 ![0] bcast_S480000_S480000x1_0 dst)
    (mulf (broadcastInDim S480000x128 ![0, 1] bcast_S480000x1_S480000x128_0_1 (broadcastInDim S480000x1 ![0] bcast_S480000_S480000x1_0 ew))
      (Host.gather gather_S30000x128_S480000x1_S480000x128_1_0_n_n_0_1_1128 t (srcCol src)))

/-! ## The whole network -/

/-- The result array as one function of the ten argument arrays. -/
def net (x : Vec F S30000x1433 .f32) (src dst : IVec S480000 32) (ew : Vec F S480000 .f32)
    (W1 : Vec F S1433x512 .f32) (b1 : Vec F S512 .f32) (W2 : Vec F S512x128 .f32) (b2 : Vec F S128 .f32)
    (Wl : Vec F S128x7 .f32) (bl : Vec F S7 .f32) : Vec F S30000x7 .f32 :=
  addRow7 (dense3 (act128 (spmm128 src dst ew (dense2 (act512 (spmm512 src dst ew (dense1 x W1)) (row512 b1)) W2)) (row128 b2)) Wl) (row7 bl)

end Cert.Stages

end
-- ==== Proof.StageLaws.lean ====
/-
  Two small facts about the bias rows, at the extended reals.

  A `[1, n]` row of zeros added to every row of an array changes nothing (`a + 0 = a` on the extended reals, the
  infinities included); and a vector of `n` reshaped to `[1, n]` is the same row as the vector placed along the
  second axis of `[1, n]`.
-/
import proofs.«114317_j19756849561729_1_alg».proof.Proof.Stages
import Idealize.ShloMosaic.PureOps.Ideal
import Idealize.ShloMosaic.PureOps.Ideal.Laws
import Idealize.ShloMosaic.Lib.ValueIdx
import Idealize.ShloMosaic.Lib.Pipeline.Value

noncomputable section

namespace Cert.Stages

open Idealize.ShloMosaic Idealize.ShloMosaic.ValueIdx Cert.ReferenceIdeal

/-! ## A row of zeros -/

/-- The zero vector of `512`, reshaped to a row, is zero everywhere. -/
theorem zeroRow512 (h0 : S_.BroadcastsInDim S512 (![] : Fin 0 → Fin S512.rank)) (hc : S512.ShapeCasts S1x512) (i : S1x512.Idx) :
    shapeCast S1x512 (broadcastInDim S512 ![] h0 (constant (F := Ideal) S_ .f32 0x00000000#32)) hc i = (0 : EReal) := by
  unfold shapeCast broadcastInDim
  exact Ideal.ofBits_zero_f32

/-- The zero vector of `128`, reshaped to a row, is zero everywhere. -/
theorem zeroRow128 (h0 : S_.BroadcastsInDim S128 (![] : Fin 0 → Fin S128.rank)) (hc : S128.ShapeCasts S1x128) (i : S1x128.Idx) :
    shapeCast S1x128 (broadcastInDim S128 ![] h0 (constant (F := Ideal) S_ .f32 0x00000000#32)) hc i = (0 : EReal) := by
  unfold shapeCast broadcastInDim
  exact Ideal.ofBits_zero_f32

/-- Adding a row that is zero everywhere changes nothing. -/
theorem addRow512_zero (a : Vec Ideal S30000x512 .f32) (z : Vec Ideal S1x512 .f32) (hz : ∀ i, z i = (0 : EReal)) :
    addRow512 a z = a := by
  funext j
  unfold addRow512 broadcastInDim
  rw [addf_apply, hz]
  exact add_zero _

theorem addRow128_zero (a : Vec Ideal S30000x128 .f32) (z : Vec Ideal S1x128 .f32) (hz : ∀ i, z i = (0 : EReal)) :
    addRow128 a z = a := by
  funext j
  unfold addRow128 broadcastInDim
  rw [addf_apply, hz]
  exact add_zero _

/-! ## A vector reshaped to a row -/

variable {F : FTy → Type} [FloatOps F]

/-- `[512]` reshaped to `[1, 512]` reads the vector at the column. -/
theorem row512_eq (b : Vec F S512 .f32) (hc : S512.ShapeCasts S1x512) : shapeCast S1x512 b hc = row512 b := by
  funext j
  obtain ⟨p, q, rfl⟩ : ∃ (p : Fin 1) (q : Fin 512), j = ix2 p q := ⟨j 0, j 1, eq_ix2 j⟩
  unfold row512
  rw [shapeCast_apply b hc (ix2 p q) (ix1 q) (by
        rw [Shape.rowMajor_val_one, Shape.rowMajor_val_two]
        show q.val = p.val * 512 + q.val
        have := p.isLt; omega),
    broadcastInDim_apply ![1] _ b (ix2 p q) (ix1 q) (fun a => by
        match a with
        | ⟨0, _⟩ => rfl)]

/-- `[128]` reshaped to `[1, 128]` reads the vector at the column. -/
theorem row128_eq (b : Vec F S128 .f32) (hc : S128.ShapeCasts S1x128) : shapeCast S1x128 b hc = row128 b := by
  funext j
  obtain ⟨p, q, rfl⟩ : ∃ (p : Fin 1) (q : Fin 128), j = ix2 p q := ⟨j 0, j 1, eq_ix2 j⟩
  unfold row128
  rw [shapeCast_apply b hc (ix2 p q) (ix1 q) (by
        rw [Shape.rowMajor_val_one, Shape.rowMajor_val_two]
        show q.val = p.val * 128 + q.val
        have := p.isLt; omega),
    broadcastInDim_apply ![1] _ b (ix2 p q) (ix1 q) (fun a => by
        match a with
        | ⟨0, _⟩ => rfl)]

/-- `[7]` reshaped to `[1, 7]` reads the vector at the column. -/
theorem row7_eq (b : Vec F S7 .f32) (hc : S7.ShapeCasts S1x7) : shapeCast S1x7 b hc = row7 b := by
  funext j
  obtain ⟨p, q, rfl⟩ : ∃ (p : Fin 1) (q : Fin 7), j = ix2 p q := ⟨j 0, j 1, eq_ix2 j⟩
  unfold row7
  rw [shapeCast_apply b hc (ix2 p q) (ix1 q) (by
        rw [Shape.rowMajor_val_one, Shape.rowMajor_val_two]
        show q.val = p.val * 7 + q.val
        have := p.isLt; omega),
    broadcastInDim_apply ![1] _ b (ix2 p q) (ix1 q) (fun a => by
        match a with
        | ⟨0, _⟩ => rfl)]

end Cert.Stages

end
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.Region0.lean ====
/-
  Region 0: the first dense layer's product with its bias row, block by block.

  The grid has 50 points; point `t` reads rows `600 t … 600 t + 599` of `x` (a block [600, 1433]), the whole of
  `W1` ([1433, 512]) and the whole bias row ([1, 512]), and writes rows `600 t … 600 t + 599` of the result.
  Entry (r, c) of what point `t` writes is  Σ_k x[600 t + r, k] · W1[k, c]  +  b[0, c]:  a product accumulated
  into zeros is the plain sum over the contracted coordinate, the narrowing of the operands is the identity at the
  extended reals, and the [1, 512] row is repeated down the 600 rows. Entry (R, c) of the whole-array product with
  the row added is the same expression at row R. The 50 blocks of 600 rows cover the 30000 rows (row R lies in block
  R / 600), so after the last point the result array is the whole-array function.
-/
import proofs.«114317_j19756849561729_1_alg».proof.Proof.Gen.KernelIdeal.Frame
import proofs.«114317_j19756849561729_1_alg».proof.Proof.Stages
import proofs.«114317_j19756849561729_1_alg».proof.Proof.LibKeepdims
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import Idealize.ShloMosaic.Lib.StackMember

noncomputable section

namespace Cert.KernelIdeal.RegionValue

open Idealize.ShloMosaic Idealize.ShloMosaic.TcCoe Idealize.SL.Sem
open Idealize.ShloMosaic.ValueIdx
open Cert.KernelIdeal Cert.KernelIdeal.Gen

/-! ## One entry of a block's product, and of the whole product -/

/-- The block product's dimension numbers are the plain ones: [600, 1433] by [1433, 512], the second axis of the
    left against the first of the right. -/
theorem blockDims0 : dot_S600x1433_S1433x512_S600x512_1_0_0_1_n_n = DotDims.plain 600 1433 512 := rfl

/-- So are the whole product's: [30000, 1433] by [1433, 512]. -/
theorem wholeDims0 :
    Cert.ReferenceIdeal.dot_S30000x1433_S1433x512_S30000x512_1_0_0_1_n_n = DotDims.plain 30000 1433 512 := rfl

/-- A plain product accumulated into zeros, read at (a, b): the sum over the contracted coordinate c of
    A[a, c] · B[c, b]. Both the accumulating product and the plain one are the same sum over the contraction's
    index set, and the plain one is the sum over the coordinate. -/
theorem matmul_zero_apply0 {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec .single A B (ix2 a b)).symm.trans
      (StackMember.dotGeneral_plain_apply prec A B a b))

/-- What a point stores, at (p, q): the sum over k of x[p, k] · w[k, q], plus the row at q. -/
theorem blockEntry0 (x : Vec Ideal S600x1433 .f32) (w : Vec Ideal S1433x512 .f32) (b : Vec Ideal S1x512 .f32)
    (p : Fin 600) (q : Fin 512) :
    (k0_pay1 (F := Ideal) x w b) (ix2 p q) = (∑ k : Fin 1433, x (ix2 p k) * w (ix2 k q)) + b (ix2 (0 : Fin 1) q) := by
  unfold k0_pay1
  rw [blockDims0]
  exact (addf_apply _ _ _).trans (congrArg₂ (· + ·)
    (matmul_zero_apply0 none (truncf .bf16 x bitsLt_bf16_f32) (truncf .bf16 w bitsLt_bf16_f32) p q)
    (Cert.LibKeepdims.row_broadcast_apply b shapeCasts_S1x512_S1x512 broadcasts_S1x512_S600x512 p q))

/-- The whole-array product with the row added, at (R, q): the same expression at row R. -/
theorem wholeEntry0 (X : Vec Ideal Cert.ReferenceIdeal.S30000x1433 .f32) (W : Vec Ideal Cert.ReferenceIdeal.S1433x512 .f32)
    (B : Vec Ideal Cert.ReferenceIdeal.S1x512 .f32) (R : Fin 30000) (q : Fin 512) :
    Cert.Stages.addRow512 (Cert.Stages.dense1 X W) B (ix2 R q)
      = (∑ k : Fin 1433, X (ix2 R k) * W (ix2 k q)) + B (ix2 (0 : Fin 1) q) := by
  unfold Cert.Stages.addRow512 Cert.Stages.dense1
  rw [wholeDims0]
  refine (addf_apply _ _ _).trans (congrArg₂ (· + ·) (StackMember.dotGeneral_plain_apply none X W R q) ?_)
  refine broadcastInDim_apply _ _ B (ix2 R q) (ix2 (0 : Fin 1) q) fun a => ?_
  match a with
  | ⟨0, _⟩ => rfl
  | ⟨1, _⟩ => rfl

/-- A block's entry is the whole array's, when the block's row p is the array's row R and the block's operands are
    the arrays' entries there. -/
theorem entry0 (X : Vec Ideal Cert.ReferenceIdeal.S30000x1433 .f32) (W : Vec Ideal Cert.ReferenceIdeal.S1433x512 .f32)
    (B : Vec Ideal Cert.ReferenceIdeal.S1x512 .f32)
    (x : Vec Ideal S600x1433 .f32) (w : Vec Ideal S1433x512 .f32) (b : Vec Ideal S1x512 .f32)
    (R : Fin 30000) (p : Fin 600) (q : Fin 512)
    (hx : ∀ k : Fin 1433, x (ix2 p k) = X (ix2 R k)) (hw : ∀ k : Fin 1433, w (ix2 k q) = W (ix2 k q))
    (hb : b (ix2 (0 : Fin 1) q) = B (ix2 (0 : Fin 1) q)) :
    (k0_pay1 (F := Ideal) x w b) (ix2 p q) = Cert.Stages.addRow512 (Cert.Stages.dense1 X W) B (ix2 R q) := by
  rw [blockEntry0, wholeEntry0, hb]
  exact congrArg (· + B (ix2 (0 : Fin 1) q)) (Finset.sum_congr rfl fun k _ => by rw [hx k, hw k])

/-! ## From the blocks to the array -/

variable (V : (c : Dev nD) → (b : Ref sig .tc) → Buf (Elt Ideal) ((c : Thread nD τ).loc b))

theorem zeroOffsets0 : (![0, 0] : Fin 2 → Nat) = fun _ => 0 := funext fun a => by fin_cases a <;> rfl

/-- The index maps over the 50 points: the blocks of `x` and of the result move down the rows with the point; the
    weights and the bias row stay. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the whole-array function of the arrays as the region finds them. -/
theorem writeBack0 (c : Dev nD) (t : Fin cfg0.N) :
    (dat0 (F := Ideal) V c).flushed 3 t = ((cfg0.win 3).blk t).view.read (Elt Ideal)
      (Cert.Stages.addRow512 (Cert.Stages.dense1 (V c main_arg0) (V c main_arg4)) (V c main_v2)) := by
  show (cfg0.win 3).cut (grid0.coords t) ((dat0 V c).after 3 t) = _
  rw [after0_3]
  unfold out0_3
  rw [View.canon_unit_zero zeroOffsets0]
  simp only [View.ld_unit_zero (S := S600x1433) zeroOffsets0, View.ld_unit_zero (S := S1433x512) zeroOffsets0,
    View.ld_unit_zero (S := S1x512) zeroOffsets0]
  obtain ⟨e00, e01, e10, e11, e20, e21, e30, e31⟩ := blockIndex0 t
  have ht : t.val < 50 := lt_of_lt_of_eq t.isLt N_0
  funext j
  obtain ⟨p, q, rfl⟩ : ∃ (p : Fin 600) (q : Fin 512), j = ix2 p q := ⟨j 0, j 1, eq_ix2 j⟩
  have hp : p.val < 600 := p.isLt
  show k0_pay1 (F := Ideal) (iblk0 V c 0 t) (iblk0 V c 1 t) (iblk0 V c 2 t) (ix2 p q)
    = Cert.Stages.addRow512 (Cert.Stages.dense1 (V c main_arg0) (V c main_arg4)) (V c main_v2)
        (((cfg0.win 3).blk t).view.emb (ix2 p q))
  have he : ((cfg0.win 3).blk t).view.emb (ix2 p q) = ix2 (⟨600 * t.val + p.val, by omega⟩ : Fin 30000) q := by
    funext a; apply Fin.ext
    match a with
    | ⟨0, _⟩ => show win0_3.index t (0 : Fin 2) * 600 + 1 * p.val = 600 * t.val + p.val; omega
    | ⟨1, _⟩ => show win0_3.index t (1 : Fin 2) * 512 + 1 * q.val = q.val; omega
  refine Eq.trans ?_ (congrArg _ he.symm)
  refine entry0 _ _ _ _ _ _ _ p q (fun k => ?_) (fun k => ?_) ?_
  · show V c main_arg0 (((cfg0.win 0).blk t).view.emb (ix2 p k)) = V c main_arg0 _
    refine congrArg _ (funext fun a => Fin.ext ?_)
    match a with
    | ⟨0, _⟩ => show win0_0.index t (0 : Fin 2) * 600 + 1 * p.val = 600 * t.val + p.val; omega
    | ⟨1, _⟩ => show win0_0.index t (1 : Fin 2) * 1433 + 1 * k.val = k.val; omega
  · show V c main_arg4 (((cfg0.win 1).blk t).view.emb (ix2 k q)) = V c main_arg4 _
    refine congrArg _ (funext fun a => Fin.ext ?_)
    match a with
    | ⟨0, _⟩ => show win0_1.index t (0 : Fin 2) * 1433 + 1 * k.val = k.val; omega
    | ⟨1, _⟩ => show win0_1.index t (1 : Fin 2) * 512 + 1 * q.val = q.val; omega
  · show V c main_v2 (((cfg0.win 2).blk t).view.emb (ix2 (0 : Fin 1) q)) = V c main_v2 _
    refine congrArg _ (funext fun a => Fin.ext ?_)
    match a with
    | ⟨0, _⟩ => show win0_2.index t (0 : Fin 2) * 1 + 1 * 0 = 0; omega
    | ⟨1, _⟩ => show win0_2.index t (1 : Fin 2) * 512 + 1 * q.val = q.val; omega

/-- An index of the result array is in point `t`'s block iff each coordinate is in the block's range on its axis. -/
theorem inBlock0 (t : Fin cfg0.N) (i : S30000x512.Idx) :
    i ∈ ((cfg0.win 3).blk t).view.set ↔ ∀ a : Fin 2, win0_3.index t a * S600x512.size a ≤ (i a).val
      ∧ (i a).val < win0_3.index t a * S600x512.size a + S600x512.size a := by
  show i ∈ ((View.whole main_v3).slice (win0_3.rect t)).set ↔ _
  rw [View.set_slice_whole, Rect.mem_set_unit]
  exact Iff.rfl

/-- Every index of the result array is in some point's block: row R is in block R / 600. -/
theorem covered0 (i : S30000x512.Idx) :
    ∃ t : Fin cfg0.N, (cfg0.win 3).flush t = true ∧ i ∈ ((cfg0.win 3).blk t).view.set := by
  have hi0 : (i 0).val < 30000 := (i 0).isLt
  have hi1 : (i 1).val < 512 := (i 1).isLt
  have hN : cfg0.N = 50 := N_0
  have hlt : (i 0).val / 600 < cfg0.N := by rw [hN]; omega
  obtain ⟨e00, e01, e10, e11, e20, e21, e30, e31⟩ := blockIndex0 ⟨(i 0).val / 600, hlt⟩
  refine ⟨⟨(i 0).val / 600, hlt⟩, flush0_3 _, ?_⟩
  rw [inBlock0]
  intro a
  match a with
  | ⟨0, _⟩ =>
    show win0_3.index ⟨(i 0).val / 600, hlt⟩ (0 : Fin 2) * 600 ≤ (i 0).val
      ∧ (i 0).val < win0_3.index ⟨(i 0).val / 600, hlt⟩ (0 : Fin 2) * 600 + 600
    rw [e30]; show (i 0).val / 600 * 600 ≤ (i 0).val ∧ (i 0).val < (i 0).val / 600 * 600 + 600; omega
  | ⟨1, _⟩ =>
    show win0_3.index ⟨(i 0).val / 600, hlt⟩ (1 : Fin 2) * 512 ≤ (i 1).val
      ∧ (i 1).val < win0_3.index ⟨(i 0).val / 600, hlt⟩ (1 : Fin 2) * 512 + 512
    rw [e31]; omega

/-- After the region, the result array is the whole-array product with the bias row added, of the arrays as the
    region finds them. -/
theorem region0 (c : Dev nD) : (dat0 (F := Ideal) V c).arrAt 3 cfg0.N
    = Cert.Stages.addRow512 (Cert.Stages.dense1 (V c main_arg0) (V c main_arg4)) (V c main_v2) :=
  (dat0 (F := Ideal) V c).arrAt_eq_of_cover 3 _ (fun t _ => writeBack0 V c t) covered0

end Cert.KernelIdeal.RegionValue

end
-- ==== Proof.Region1.lean ====
/-
  The first layer's epilogue, read off the blocks.

  The kernel adds the bias row to a block of 600 rows and keeps `v` where `v > 0`, `0.1 · v` elsewhere; the whole-array
  epilogue keeps `v` where `v ≥ 0`. Over the extended reals the two agree: they differ only at `v = 0`, where both
  branches are `0`. Point `t` of the grid writes rows `600·t … 600·t + 599`, so its block is the restriction of the
  whole-array function to those rows, and the fifty blocks cover the 30000 rows (row `r` is in block `r / 600`).
-/
import proofs.«114317_j19756849561729_1_alg».proof.Proof.Gen.KernelIdeal.Frame
import proofs.«114317_j19756849561729_1_alg».proof.Proof.Stages
import Idealize.ShloMosaic.PureOps.Ideal
import Idealize.ShloMosaic.PureOps.Ideal.Laws
import Idealize.ShloMosaic.Lib.Pipeline.Value
import Idealize.ShloMosaic.Lib.ValueIdx
import Idealize.ShloMosaic.Lib.IdealHost
import Idealize.ShloMosaic.Lib.KernelVsHost

noncomputable section

namespace Cert.KernelIdeal.RegionValue

open Idealize.ShloMosaic Idealize.ShloMosaic.TcCoe Idealize.SL.Sem
open Idealize.ShloMosaic.ValueIdx
open Cert.KernelIdeal Cert.KernelIdeal.Gen

/-! ## The rectifier at one extended real -/

/-- At an extended real the strict and the weak test against zero select the same value: the two tests differ only at
    `0`, where the value itself and its multiple are both `0`. -/
theorem lrelu_strict_eq_weak (s v : EReal) :
    Scalar.select (Ideal.cmp .ogt v 0) v (s * v) = Scalar.select (Ideal.cmp .oge v 0) v (s * v) := by
  unfold Scalar.select Ideal.cmp
  rcases lt_trichotomy v 0 with h | h | h
  · have h1 : ¬ (0 < v) := not_lt.mpr h.le
    have h2 : ¬ (0 ≤ v) := not_le.mpr h
    simp [h1, h2]
  · subst h; simp
  · simp [h, h.le]

/-! ## One block of the kernel, and the whole-array epilogue, at an index -/

/-- The body's value at row `p`, column `q` of a block: the bias row's entry of that column added, then the strict
    test against zero choosing between the sum and its tenth. -/
theorem bias_lrelu_block_apply (x : Vec Ideal S600x512 .f32) (b : Vec Ideal S1x512 .f32) (p : Fin 600) (q : Fin 512) :
    k1_pay1 x b (ix2 p q) =
      Scalar.select (Ideal.cmp .ogt (x (ix2 p q) + b (ix2 (0 : Fin 1) q)) 0) (x (ix2 p q) + b (ix2 (0 : Fin 1) q))
        (Ideal.ofBits .f32 0x3DCCCCCD#32 * (x (ix2 p q) + b (ix2 (0 : Fin 1) q))) := by
  unfold k1_pay1
  simp only [shapeCast_self]
  rw [select_apply, cmpf_apply, mulf_apply, addf_apply, broadcast_apply, broadcast_apply]
  have hb : broadcastTo S600x512 b broadcasts_S1x512_S600x512 (ix2 p q) = b (ix2 (0 : Fin 1) q) :=
    broadcastTo_apply b broadcasts_S1x512_S600x512 (ix2 p q) (ix2 (0 : Fin 1) q) (by
      intro a
      match a with
      | ⟨0, _⟩ => rfl
      | ⟨1, _⟩ => rfl)
  rw [hb]
  show Scalar.select (Ideal.cmp .ogt _ (Ideal.ofBits .f32 0x00000000#32)) _ _ = _
  rw [Ideal.ofBits_zero_f32]
  rfl

/-- The layer's epilogue at row `r`, column `q` of the whole array: the same sum, the weak test. -/
theorem act512_apply (a : Vec Ideal S30000x512 .f32) (b : Vec Ideal S1x512 .f32) (r : Fin 30000) (q : Fin 512) :
    Cert.Stages.act512 a b (ix2 r q) =
      Scalar.select (Ideal.cmp .oge (a (ix2 r q) + b (ix2 (0 : Fin 1) q)) 0) (a (ix2 r q) + b (ix2 (0 : Fin 1) q))
        (Ideal.ofBits .f32 0x3DCCCCCD#32 * (a (ix2 r q) + b (ix2 (0 : Fin 1) q))) := by
  unfold Cert.Stages.act512 Cert.Stages.lrelu512 Cert.Stages.addRow512
  rw [select_apply, cmpf_apply, mulf_apply, addf_apply]
  rw [broadcastInDim_oneRow_apply]
  rw [broadcastInDim_scalar_apply, broadcastInDim_scalar_apply]
  show Scalar.select (Ideal.cmp .oge _ (Ideal.ofBits .f32 0x00000000#32)) _ _ = _
  rw [Ideal.ofBits_zero_f32]
  rfl

/-- A block entry of the kernel is the epilogue's entry of the whole array, when the block's entry is the array's
    there (`hx`: same column, `hcol`) and the block's bias row is the array's (`hb`). -/
theorem bias_lrelu_block_eq_act512 (X : Vec Ideal S30000x512 .f32) (B : Vec Ideal S1x512 .f32)
    (x : Vec Ideal S600x512 .f32) (b : Vec Ideal S1x512 .f32) (j : S600x512.Idx) (i : S30000x512.Idx)
    (hcol : (i 1).val = (j 1).val) (hx : x j = X i) (hb : ∀ k : S1x512.Idx, b k = B k) :
    k1_pay1 x b j = Cert.Stages.act512 X B i := by
  obtain ⟨p, q, rfl⟩ : ∃ (p : Fin 600) (q : Fin 512), j = ix2 p q := ⟨j 0, j 1, eq_ix2 j⟩
  obtain ⟨r, q', rfl⟩ : ∃ (r : Fin 30000) (q' : Fin 512), i = ix2 r q' := ⟨i 0, i 1, eq_ix2 i⟩
  obtain rfl : q' = q := Fin.ext hcol
  rw [bias_lrelu_block_apply, act512_apply, hx, hb, lrelu_strict_eq_weak]

/-! ## From the blocks to the array -/

variable (V : (c : Dev nD) → (b : Ref sig .tc) → Buf (Elt Ideal) ((c : Thread nD τ).loc b))

theorem zeros2 : (![0, 0] : Fin 2 → Nat) = fun _ => 0 := funext fun a => by fin_cases a <;> rfl

/-- The block indices over the grid: at point `t` the activations' and the result's blocks are row block `t`,
    column block `0`; the bias row's block is the whole row at every point. -/
theorem rowBlock1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the epilogue of the arrays as the region finds them. -/
theorem flushed1_eq (c : Dev nD) (t : Fin cfg1.N) :
    (dat1 (F := Ideal) V c).flushed 2 t
      = ((cfg1.win 2).blk t).view.read (Elt Ideal) (Cert.Stages.act512 (V c main_v16) (V c main_v17)) := by
  show (cfg1.win 2).cut (grid1.coords t) ((dat1 (F := Ideal) V c).after 2 t) = _
  rw [after1_2]
  unfold out1_2
  rw [View.canon_unit_zero zeros2]
  simp only [View.ld_unit_zero (S := S600x512) zeros2, View.ld_unit_zero (S := S1x512) zeros2]
  obtain ⟨e0, e1, e2, e3, e4, e5⟩ := rowBlock1 t
  funext j
  refine bias_lrelu_block_eq_act512 (V c main_v16) (V c main_v17) (iblk1 V c 0 t) (iblk1 V c 1 t) j
    (((cfg1.win 2).blk t).view.emb j) ?_ ?_ ?_
  · show win1_2.index t (1 : Fin 2) * 512 + 1 * (j 1).val = (j 1).val
    omega
  · show V c main_v16 (((cfg1.win 0).blk t).view.emb j) = V c main_v16 (((cfg1.win 2).blk t).view.emb j)
    refine congrArg _ (funext fun a => Fin.ext ?_)
    match a with
    | ⟨0, _⟩ => show win1_0.index t (0 : Fin 2) * 600 + 1 * (j 0).val = win1_2.index t (0 : Fin 2) * 600 + 1 * (j 0).val; omega
    | ⟨1, _⟩ => show win1_0.index t (1 : Fin 2) * 512 + 1 * (j 1).val = win1_2.index t (1 : Fin 2) * 512 + 1 * (j 1).val; omega
  · intro k
    show V c main_v17 (((cfg1.win 1).blk t).view.emb k) = V c main_v17 k
    refine congrArg _ (funext fun a => Fin.ext ?_)
    match a with
    | ⟨0, _⟩ => show win1_1.index t (0 : Fin 2) * 1 + 1 * (k 0).val = (k 0).val; omega
    | ⟨1, _⟩ => show win1_1.index t (1 : Fin 2) * 512 + 1 * (k 1).val = (k 1).val; omega

/-- An index of the array is in point `t`'s block iff each coordinate is in the block's range on its axis. -/
theorem mem_rowBlock1 (t : Fin cfg1.N) (i : S30000x512.Idx) :
    i ∈ ((cfg1.win 2).blk t).view.set ↔ ∀ a : Fin 2, win1_2.index t a * S600x512.size a ≤ (i a).val
      ∧ (i a).val < win1_2.index t a * S600x512.size a + S600x512.size a := by
  show i ∈ ((View.whole main_v18).slice (win1_2.rect t)).set ↔ _
  rw [View.set_slice_whole, Rect.mem_set_unit]
  exact Iff.rfl

/-- Row `r` lies in the block of point `r / 600`: the fifty row blocks cover the array. -/
theorem cover1 (i : S30000x512.Idx) :
    ∃ t : Fin cfg1.N, (cfg1.win 2).flush t = true ∧ i ∈ ((cfg1.win 2).blk t).view.set := by
  have hi0 : (i 0).val < 30000 := (i 0).isLt
  have hi1 : (i 1).val < 512 := (i 1).isLt
  have hN : cfg1.N = 50 := N_1
  let t : Fin cfg1.N := ⟨(i 0).val / 600, by rw [hN]; omega⟩
  have ht : t.val = (i 0).val / 600 := rfl
  obtain ⟨-, -, -, -, e4, e5⟩ := rowBlock1 t
  refine ⟨t, flush1_2 t, ?_⟩
  rw [mem_rowBlock1]
  intro a
  match a with
  | ⟨0, _⟩ => show win1_2.index t (0 : Fin 2) * 600 ≤ (i 0).val ∧ (i 0).val < win1_2.index t (0 : Fin 2) * 600 + 600; omega
  | ⟨1, _⟩ => show win1_2.index t (1 : Fin 2) * 512 ≤ (i 1).val ∧ (i 1).val < win1_2.index t (1 : Fin 2) * 512 + 512; omega

/-- The region's result array after its run: the layer's epilogue of the two arrays it read. -/
theorem region1 (c : Dev nD) : (dat1 (F := Ideal) V c).arrAt 2 cfg1.N = Cert.Stages.act512 (V c main_v16) (V c main_v17) :=
  (dat1 (F := Ideal) V c).arrAt_eq_of_cover 2 (Cert.Stages.act512 (V c main_v16) (V c main_v17))
    (fun t _ => flushed1_eq V c t) cover1

end Cert.KernelIdeal.RegionValue

end
-- ==== Proof.Region2.lean ====
/-
  Region 2: the second dense layer's product with its bias row, block by block.

  The grid has 50 points; point `t` reads rows `600 t … 600 t + 599` of the first layer's activations (a block
  [600, 512]), the whole of `W2` ([512, 128]) and the whole bias row ([1, 128]), and writes rows
  `600 t … 600 t + 599` of the result. Entry (r, c) of what point `t` writes is
  Σ_k h[600 t + r, k] · W2[k, c]  +  b[0, c]:  the loaded block is first cast to its own shape, which changes
  nothing; a product accumulated into zeros is the plain sum over the contracted coordinate, the narrowing of the
  operands is the identity at the extended reals, and the [1, 128] row is repeated down the 600 rows. Entry (R, c)
  of the whole-array product with the row added is the same expression at row R. The 50 blocks of 600 rows cover
  the 30000 rows (row R lies in block R / 600), so after the last point the result array is the whole-array function.
-/
import proofs.«114317_j19756849561729_1_alg».proof.Proof.Gen.KernelIdeal.Frame
import proofs.«114317_j19756849561729_1_alg».proof.Proof.Stages
import proofs.«114317_j19756849561729_1_alg».proof.Proof.LibKeepdims
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import Idealize.ShloMosaic.Lib.StackMember

noncomputable section

namespace Cert.KernelIdeal.RegionValue

open Idealize.ShloMosaic Idealize.ShloMosaic.TcCoe Idealize.SL.Sem
open Idealize.ShloMosaic.ValueIdx
open Cert.KernelIdeal Cert.KernelIdeal.Gen

/-! ## One entry of a block's product, and of the whole product -/

/-- The block product's dimension numbers are the plain ones: [600, 512] by [512, 128], the second axis of the
    left against the first of the right. -/
theorem blockDims2 : dot_S600x512_S512x128_S600x128_1_0_0_1_n_n = DotDims.plain 600 512 128 := rfl

/-- So are the whole product's: [30000, 512] by [512, 128]. -/
theorem wholeDims2 :
    Cert.ReferenceIdeal.dot_S30000x512_S512x128_S30000x128_1_0_0_1_n_n = DotDims.plain 30000 512 128 := rfl

/-- A plain product accumulated into zeros, read at (a, b): the sum over the contracted coordinate c of
    A[a, c] · B[c, b]. Both the accumulating product and the plain one are the same sum over the contraction's
    index set, and the plain one is the sum over the coordinate. -/
theorem matmul_zero_apply2 {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec .single A B (ix2 a b)).symm.trans
      (StackMember.dotGeneral_plain_apply prec A B a b))

/-- What a point stores, at (p, q): the sum over k of x[p, k] · w[k, q], plus the row at q. -/
theorem blockEntry2 (x : Vec Ideal S600x512 .f32) (w : Vec Ideal S512x128 .f32) (b : Vec Ideal S1x128 .f32)
    (p : Fin 600) (q : Fin 128) :
    (k2_pay1 (F := Ideal) x w b) (ix2 p q) = (∑ k : Fin 512, x (ix2 p k) * w (ix2 k q)) + b (ix2 (0 : Fin 1) q) := by
  unfold k2_pay1
  rw [blockDims2, shapeCast_self x shapeCasts_S600x512_S600x512]
  exact (addf_apply _ _ _).trans (congrArg₂ (· + ·)
    (matmul_zero_apply2 none (truncf .bf16 x bitsLt_bf16_f32) (truncf .bf16 w bitsLt_bf16_f32) p q)
    (Cert.LibKeepdims.row_broadcast_apply b shapeCasts_S1x128_S1x128 broadcasts_S1x128_S600x128 p q))

/-- The whole-array product with the row added, at (R, q): the same expression at row R. -/
theorem wholeEntry2 (X : Vec Ideal Cert.ReferenceIdeal.S30000x512 .f32) (W : Vec Ideal Cert.ReferenceIdeal.S512x128 .f32)
    (B : Vec Ideal Cert.ReferenceIdeal.S1x128 .f32) (R : Fin 30000) (q : Fin 128) :
    Cert.Stages.addRow128 (Cert.Stages.dense2 X W) B (ix2 R q)
      = (∑ k : Fin 512, X (ix2 R k) * W (ix2 k q)) + B (ix2 (0 : Fin 1) q) := by
  unfold Cert.Stages.addRow128 Cert.Stages.dense2
  rw [wholeDims2]
  refine (addf_apply _ _ _).trans (congrArg₂ (· + ·) (StackMember.dotGeneral_plain_apply none X W R q) ?_)
  refine broadcastInDim_apply _ _ B (ix2 R q) (ix2 (0 : Fin 1) q) fun a => ?_
  match a with
  | ⟨0, _⟩ => rfl
  | ⟨1, _⟩ => rfl

/-- A block's entry is the whole array's, when the block's row p is the array's row R and the block's operands are
    the arrays' entries there. -/
theorem entry2 (X : Vec Ideal Cert.ReferenceIdeal.S30000x512 .f32) (W : Vec Ideal Cert.ReferenceIdeal.S512x128 .f32)
    (B : Vec Ideal Cert.ReferenceIdeal.S1x128 .f32)
    (x : Vec Ideal S600x512 .f32) (w : Vec Ideal S512x128 .f32) (b : Vec Ideal S1x128 .f32)
    (R : Fin 30000) (p : Fin 600) (q : Fin 128)
    (hx : ∀ k : Fin 512, x (ix2 p k) = X (ix2 R k)) (hw : ∀ k : Fin 512, w (ix2 k q) = W (ix2 k q))
    (hb : b (ix2 (0 : Fin 1) q) = B (ix2 (0 : Fin 1) q)) :
    (k2_pay1 (F := Ideal) x w b) (ix2 p q) = Cert.Stages.addRow128 (Cert.Stages.dense2 X W) B (ix2 R q) := by
  rw [blockEntry2, wholeEntry2, hb]
  exact congrArg (· + B (ix2 (0 : Fin 1) q)) (Finset.sum_congr rfl fun k _ => by rw [hx k, hw k])

/-! ## From the blocks to the array -/

variable (V : (c : Dev nD) → (b : Ref sig .tc) → Buf (Elt Ideal) ((c : Thread nD τ).loc b))

theorem zeroOffsets2 : (![0, 0] : Fin 2 → Nat) = fun _ => 0 := funext fun a => by fin_cases a <;> rfl

/-- The index maps over the 50 points: the blocks of the activations and of the result move down the rows with the
    point; the weights and the bias row stay. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the whole-array function of the arrays as the region finds them. -/
theorem writeBack2 (c : Dev nD) (t : Fin cfg2.N) :
    (dat2 (F := Ideal) V c).flushed 3 t = ((cfg2.win 3).blk t).view.read (Elt Ideal)
      (Cert.Stages.addRow128 (Cert.Stages.dense2 (V c main_v18) (V c main_arg6)) (V c main_v19)) := by
  show (cfg2.win 3).cut (grid2.coords t) ((dat2 V c).after 3 t) = _
  rw [after2_3]
  unfold out2_3
  rw [View.canon_unit_zero zeroOffsets2]
  simp only [View.ld_unit_zero (S := S600x512) zeroOffsets2, View.ld_unit_zero (S := S512x128) zeroOffsets2,
    View.ld_unit_zero (S := S1x128) zeroOffsets2]
  obtain ⟨e00, e01, e10, e11, e20, e21, e30, e31⟩ := blockIndex2 t
  have ht : t.val < 50 := lt_of_lt_of_eq t.isLt N_2
  funext j
  obtain ⟨p, q, rfl⟩ : ∃ (p : Fin 600) (q : Fin 128), j = ix2 p q := ⟨j 0, j 1, eq_ix2 j⟩
  have hp : p.val < 600 := p.isLt
  show k2_pay1 (F := Ideal) (iblk2 V c 0 t) (iblk2 V c 1 t) (iblk2 V c 2 t) (ix2 p q)
    = Cert.Stages.addRow128 (Cert.Stages.dense2 (V c main_v18) (V c main_arg6)) (V c main_v19)
        (((cfg2.win 3).blk t).view.emb (ix2 p q))
  have he : ((cfg2.win 3).blk t).view.emb (ix2 p q) = ix2 (⟨600 * t.val + p.val, by omega⟩ : Fin 30000) q := by
    funext a; apply Fin.ext
    match a with
    | ⟨0, _⟩ => show win2_3.index t (0 : Fin 2) * 600 + 1 * p.val = 600 * t.val + p.val; omega
    | ⟨1, _⟩ => show win2_3.index t (1 : Fin 2) * 128 + 1 * q.val = q.val; omega
  refine Eq.trans ?_ (congrArg _ he.symm)
  refine entry2 _ _ _ _ _ _ _ p q (fun k => ?_) (fun k => ?_) ?_
  · show V c main_v18 (((cfg2.win 0).blk t).view.emb (ix2 p k)) = V c main_v18 _
    refine congrArg _ (funext fun a => Fin.ext ?_)
    match a with
    | ⟨0, _⟩ => show win2_0.index t (0 : Fin 2) * 600 + 1 * p.val = 600 * t.val + p.val; omega
    | ⟨1, _⟩ => show win2_0.index t (1 : Fin 2) * 512 + 1 * k.val = k.val; omega
  · show V c main_arg6 (((cfg2.win 1).blk t).view.emb (ix2 k q)) = V c main_arg6 _
    refine congrArg _ (funext fun a => Fin.ext ?_)
    match a with
    | ⟨0, _⟩ => show win2_1.index t (0 : Fin 2) * 512 + 1 * k.val = k.val; omega
    | ⟨1, _⟩ => show win2_1.index t (1 : Fin 2) * 128 + 1 * q.val = q.val; omega
  · show V c main_v19 (((cfg2.win 2).blk t).view.emb (ix2 (0 : Fin 1) q)) = V c main_v19 _
    refine congrArg _ (funext fun a => Fin.ext ?_)
    match a with
    | ⟨0, _⟩ => show win2_2.index t (0 : Fin 2) * 1 + 1 * 0 = 0; omega
    | ⟨1, _⟩ => show win2_2.index t (1 : Fin 2) * 128 + 1 * q.val = q.val; omega

/-- An index of the result array is in point `t`'s block iff each coordinate is in the block's range on its axis. -/
theorem inBlock2 (t : Fin cfg2.N) (i : S30000x128.Idx) :
    i ∈ ((cfg2.win 3).blk t).view.set ↔ ∀ a : Fin 2, win2_3.index t a * S600x128.size a ≤ (i a).val
      ∧ (i a).val < win2_3.index t a * S600x128.size a + S600x128.size a := by
  show i ∈ ((View.whole main_v20).slice (win2_3.rect t)).set ↔ _
  rw [View.set_slice_whole, Rect.mem_set_unit]
  exact Iff.rfl

/-- Every index of the result array is in some point's block: row R is in block R / 600. -/
theorem covered2 (i : S30000x128.Idx) :
    ∃ t : Fin cfg2.N, (cfg2.win 3).flush t = true ∧ i ∈ ((cfg2.win 3).blk t).view.set := by
  have hi0 : (i 0).val < 30000 := (i 0).isLt
  have hi1 : (i 1).val < 128 := (i 1).isLt
  have hN : cfg2.N = 50 := N_2
  have hlt : (i 0).val / 600 < cfg2.N := by rw [hN]; omega
  obtain ⟨e00, e01, e10, e11, e20, e21, e30, e31⟩ := blockIndex2 ⟨(i 0).val / 600, hlt⟩
  refine ⟨⟨(i 0).val / 600, hlt⟩, flush2_3 _, ?_⟩
  rw [inBlock2]
  intro a
  match a with
  | ⟨0, _⟩ =>
    show win2_3.index ⟨(i 0).val / 600, hlt⟩ (0 : Fin 2) * 600 ≤ (i 0).val
      ∧ (i 0).val < win2_3.index ⟨(i 0).val / 600, hlt⟩ (0 : Fin 2) * 600 + 600
    rw [e30]; show (i 0).val / 600 * 600 ≤ (i 0).val ∧ (i 0).val < (i 0).val / 600 * 600 + 600; omega
  | ⟨1, _⟩ =>
    show win2_3.index ⟨(i 0).val / 600, hlt⟩ (1 : Fin 2) * 128 ≤ (i 1).val
      ∧ (i 1).val < win2_3.index ⟨(i 0).val / 600, hlt⟩ (1 : Fin 2) * 128 + 128
    rw [e31]; omega

/-- After the region, the result array is the whole-array product with the bias row added, of the arrays as the
    region finds them. -/
theorem region2 (c : Dev nD) : (dat2 (F := Ideal) V c).arrAt 3 cfg2.N
    = Cert.Stages.addRow128 (Cert.Stages.dense2 (V c main_v18) (V c main_arg6)) (V c main_v19) :=
  (dat2 (F := Ideal) V c).arrAt_eq_of_cover 3 _ (fun t _ => writeBack2 V c t) covered2

end Cert.KernelIdeal.RegionValue

end
-- ==== Proof.Region3.lean ====
/-
  The second layer's epilogue, read off the blocks.

  The kernel adds the bias row to a block of 600 rows of width 128 and keeps `v` where `v > 0`, `0.1 · v` elsewhere;
  the whole-array epilogue keeps `v` where `v ≥ 0`. Over the extended reals the two agree: they differ only at
  `v = 0`, where both branches are `0`. Point `t` of the grid writes rows `600·t … 600·t + 599`, so its block is the
  restriction of the whole-array function to those rows, and the fifty blocks cover the 30000 rows.
-/
import proofs.«114317_j19756849561729_1_alg».proof.Proof.Gen.KernelIdeal.Frame
import proofs.«114317_j19756849561729_1_alg».proof.Proof.Stages
import Idealize.ShloMosaic.PureOps.Ideal
import Idealize.ShloMosaic.PureOps.Ideal.Laws
import Idealize.ShloMosaic.Lib.Pipeline.Value
import Idealize.ShloMosaic.Lib.ValueIdx
import Idealize.ShloMosaic.Lib.IdealHost
import Idealize.ShloMosaic.Lib.KernelVsHost

noncomputable section

namespace Cert.KernelIdeal.RegionValue

open Idealize.ShloMosaic Idealize.ShloMosaic.TcCoe Idealize.SL.Sem
open Idealize.ShloMosaic.ValueIdx
open Cert.KernelIdeal Cert.KernelIdeal.Gen

/-! ## The rectifier at one extended real -/

/-- At an extended real the strict and the weak test against zero select the same value: the two tests differ only at
    `0`, where the value itself and its multiple are both `0`. -/
theorem lrelu_strict_eq_weak3 (s v : EReal) :
    Scalar.select (Ideal.cmp .ogt v 0) v (s * v) = Scalar.select (Ideal.cmp .oge v 0) v (s * v) := by
  unfold Scalar.select Ideal.cmp
  rcases lt_trichotomy v 0 with h | h | h
  · have h1 : ¬ (0 < v) := not_lt.mpr h.le
    have h2 : ¬ (0 ≤ v) := not_le.mpr h
    simp [h1, h2]
  · subst h; simp
  · simp [h, h.le]

/-! ## One block of the kernel, and the whole-array epilogue, at an index -/

/-- The body's value at row `p`, column `q` of a block: the bias row's entry of that column added, then the strict
    test against zero choosing between the sum and its tenth. -/
theorem bias_lrelu_block_apply3 (x : Vec Ideal S600x128 .f32) (b : Vec Ideal S1x128 .f32) (p : Fin 600) (q : Fin 128) :
    k3_pay1 x b (ix2 p q) =
      Scalar.select (Ideal.cmp .ogt (x (ix2 p q) + b (ix2 (0 : Fin 1) q)) 0) (x (ix2 p q) + b (ix2 (0 : Fin 1) q))
        (Ideal.ofBits .f32 0x3DCCCCCD#32 * (x (ix2 p q) + b (ix2 (0 : Fin 1) q))) := by
  unfold k3_pay1
  simp only [shapeCast_self]
  rw [select_apply, cmpf_apply, mulf_apply, addf_apply, broadcast_apply, broadcast_apply]
  have hb : broadcastTo S600x128 b broadcasts_S1x128_S600x128 (ix2 p q) = b (ix2 (0 : Fin 1) q) :=
    broadcastTo_apply b broadcasts_S1x128_S600x128 (ix2 p q) (ix2 (0 : Fin 1) q) (by
      intro a
      match a with
      | ⟨0, _⟩ => rfl
      | ⟨1, _⟩ => rfl)
  rw [hb]
  show Scalar.select (Ideal.cmp .ogt _ (Ideal.ofBits .f32 0x00000000#32)) _ _ = _
  rw [Ideal.ofBits_zero_f32]
  rfl

/-- The layer's epilogue at row `r`, column `q` of the whole array: the same sum, the weak test. -/
theorem act128_apply (a : Vec Ideal S30000x128 .f32) (b : Vec Ideal S1x128 .f32) (r : Fin 30000) (q : Fin 128) :
    Cert.Stages.act128 a b (ix2 r q) =
      Scalar.select (Ideal.cmp .oge (a (ix2 r q) + b (ix2 (0 : Fin 1) q)) 0) (a (ix2 r q) + b (ix2 (0 : Fin 1) q))
        (Ideal.ofBits .f32 0x3DCCCCCD#32 * (a (ix2 r q) + b (ix2 (0 : Fin 1) q))) := by
  unfold Cert.Stages.act128 Cert.Stages.lrelu128 Cert.Stages.addRow128
  rw [select_apply, cmpf_apply, mulf_apply, addf_apply]
  rw [broadcastInDim_oneRow_apply]
  rw [broadcastInDim_scalar_apply, broadcastInDim_scalar_apply]
  show Scalar.select (Ideal.cmp .oge _ (Ideal.ofBits .f32 0x00000000#32)) _ _ = _
  rw [Ideal.ofBits_zero_f32]
  rfl

/-- A block entry of the kernel is the epilogue's entry of the whole array, when the block's entry is the array's
    there (`hx`: same column, `hcol`) and the block's bias row is the array's (`hb`). -/
theorem bias_lrelu_block_eq_act128 (X : Vec Ideal S30000x128 .f32) (B : Vec Ideal S1x128 .f32)
    (x : Vec Ideal S600x128 .f32) (b : Vec Ideal S1x128 .f32) (j : S600x128.Idx) (i : S30000x128.Idx)
    (hcol : (i 1).val = (j 1).val) (hx : x j = X i) (hb : ∀ k : S1x128.Idx, b k = B k) :
    k3_pay1 x b j = Cert.Stages.act128 X B i := by
  obtain ⟨p, q, rfl⟩ : ∃ (p : Fin 600) (q : Fin 128), j = ix2 p q := ⟨j 0, j 1, eq_ix2 j⟩
  obtain ⟨r, q', rfl⟩ : ∃ (r : Fin 30000) (q' : Fin 128), i = ix2 r q' := ⟨i 0, i 1, eq_ix2 i⟩
  obtain rfl : q' = q := Fin.ext hcol
  rw [bias_lrelu_block_apply3, act128_apply, hx, hb, lrelu_strict_eq_weak3]

/-! ## From the blocks to the array -/

variable (V : (c : Dev nD) → (b : Ref sig .tc) → Buf (Elt Ideal) ((c : Thread nD τ).loc b))

theorem zeros2_3 : (![0, 0] : Fin 2 → Nat) = fun _ => 0 := funext fun a => by fin_cases a <;> rfl

/-- The block indices over the grid: at point `t` the activations' and the result's blocks are row block `t`,
    column block `0`; the bias row's block is the whole row at every point. -/
theorem rowBlock3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the epilogue of the arrays as the region finds them. -/
theorem flushed3_eq (c : Dev nD) (t : Fin cfg3.N) :
    (dat3 (F := Ideal) V c).flushed 2 t
      = ((cfg3.win 2).blk t).view.read (Elt Ideal) (Cert.Stages.act128 (V c main_v33) (V c main_v34)) := by
  show (cfg3.win 2).cut (grid3.coords t) ((dat3 (F := Ideal) V c).after 2 t) = _
  rw [after3_2]
  unfold out3_2
  rw [View.canon_unit_zero zeros2_3]
  simp only [View.ld_unit_zero (S := S600x128) zeros2_3, View.ld_unit_zero (S := S1x128) zeros2_3]
  obtain ⟨e0, e1, e2, e3, e4, e5⟩ := rowBlock3 t
  funext j
  refine bias_lrelu_block_eq_act128 (V c main_v33) (V c main_v34) (iblk3 V c 0 t) (iblk3 V c 1 t) j
    (((cfg3.win 2).blk t).view.emb j) ?_ ?_ ?_
  · show win3_2.index t (1 : Fin 2) * 128 + 1 * (j 1).val = (j 1).val
    omega
  · show V c main_v33 (((cfg3.win 0).blk t).view.emb j) = V c main_v33 (((cfg3.win 2).blk t).view.emb j)
    refine congrArg _ (funext fun a => Fin.ext ?_)
    match a with
    | ⟨0, _⟩ => show win3_0.index t (0 : Fin 2) * 600 + 1 * (j 0).val = win3_2.index t (0 : Fin 2) * 600 + 1 * (j 0).val; omega
    | ⟨1, _⟩ => show win3_0.index t (1 : Fin 2) * 128 + 1 * (j 1).val = win3_2.index t (1 : Fin 2) * 128 + 1 * (j 1).val; omega
  · intro k
    show V c main_v34 (((cfg3.win 1).blk t).view.emb k) = V c main_v34 k
    refine congrArg _ (funext fun a => Fin.ext ?_)
    match a with
    | ⟨0, _⟩ => show win3_1.index t (0 : Fin 2) * 1 + 1 * (k 0).val = (k 0).val; omega
    | ⟨1, _⟩ => show win3_1.index t (1 : Fin 2) * 128 + 1 * (k 1).val = (k 1).val; omega

/-- An index of the array is in point `t`'s block iff each coordinate is in the block's range on its axis. -/
theorem mem_rowBlock3 (t : Fin cfg3.N) (i : S30000x128.Idx) :
    i ∈ ((cfg3.win 2).blk t).view.set ↔ ∀ a : Fin 2, win3_2.index t a * S600x128.size a ≤ (i a).val
      ∧ (i a).val < win3_2.index t a * S600x128.size a + S600x128.size a := by
  show i ∈ ((View.whole main_v35).slice (win3_2.rect t)).set ↔ _
  rw [View.set_slice_whole, Rect.mem_set_unit]
  exact Iff.rfl

/-- Row `r` lies in the block of point `r / 600`: the fifty row blocks cover the array. -/
theorem cover3 (i : S30000x128.Idx) :
    ∃ t : Fin cfg3.N, (cfg3.win 2).flush t = true ∧ i ∈ ((cfg3.win 2).blk t).view.set := by
  have hi0 : (i 0).val < 30000 := (i 0).isLt
  have hi1 : (i 1).val < 128 := (i 1).isLt
  have hN : cfg3.N = 50 := N_3
  let t : Fin cfg3.N := ⟨(i 0).val / 600, by rw [hN]; omega⟩
  have ht : t.val = (i 0).val / 600 := rfl
  obtain ⟨-, -, -, -, e4, e5⟩ := rowBlock3 t
  refine ⟨t, flush3_2 t, ?_⟩
  rw [mem_rowBlock3]
  intro a
  match a with
  | ⟨0, _⟩ => show win3_2.index t (0 : Fin 2) * 600 ≤ (i 0).val ∧ (i 0).val < win3_2.index t (0 : Fin 2) * 600 + 600; omega
  | ⟨1, _⟩ => show win3_2.index t (1 : Fin 2) * 128 ≤ (i 1).val ∧ (i 1).val < win3_2.index t (1 : Fin 2) * 128 + 128; omega

/-- The region's result array after its run: the layer's epilogue of the two arrays it read. -/
theorem region3 (c : Dev nD) : (dat3 (F := Ideal) V c).arrAt 2 cfg3.N = Cert.Stages.act128 (V c main_v33) (V c main_v34) :=
  (dat3 (F := Ideal) V c).arrAt_eq_of_cover 2 (Cert.Stages.act128 (V c main_v33) (V c main_v34))
    (fun t _ => flushed3_eq V c t) cover3

end Cert.KernelIdeal.RegionValue

end
-- ==== Proof.Region4.lean ====
/-
  Region 4: the linear head's product with its bias row, block by block.

  The grid has 50 points; point `t` reads rows `600 t … 600 t + 599` of `h2` (a block [600, 128]), the whole of
  `Wl` ([128, 7]) and the whole bias row ([1, 7]), and writes rows `600 t … 600 t + 599` of the result.
  Entry (r, c) of what point `t` writes is  Σ_k h2[600 t + r, k] · Wl[k, c]  +  b[0, c]:  a product accumulated
  into zeros is the plain sum over the contracted coordinate, the narrowing of the operands is the identity at the
  extended reals (and so is the cast of the loaded block to its own shape), and the [1, 7] row is repeated down the
  600 rows. Entry (R, c) of the whole-array product with the row added is the same expression at row R. The 50
  blocks of 600 rows cover the 30000 rows (row R lies in block R / 600), so after the last point the result array is
  the whole-array function.
-/
import proofs.«114317_j19756849561729_1_alg».proof.Proof.Gen.KernelIdeal.Frame
import proofs.«114317_j19756849561729_1_alg».proof.Proof.Stages
import proofs.«114317_j19756849561729_1_alg».proof.Proof.LibKeepdims
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import Idealize.ShloMosaic.Lib.StackMember

noncomputable section

namespace Cert.KernelIdeal.RegionValue

open Idealize.ShloMosaic Idealize.ShloMosaic.TcCoe Idealize.SL.Sem
open Idealize.ShloMosaic.ValueIdx
open Cert.KernelIdeal Cert.KernelIdeal.Gen

/-! ## One entry of a block's product, and of the whole product -/

/-- The block product's dimension numbers are the plain ones: [600, 128] by [128, 7], the second axis of the
    left against the first of the right. -/
theorem blockDims4 : dot_S600x128_S128x7_S600x7_1_0_0_1_n_n = DotDims.plain 600 128 7 := rfl

/-- So are the whole product's: [30000, 128] by [128, 7]. -/
theorem wholeDims4 :
    Cert.ReferenceIdeal.dot_S30000x128_S128x7_S30000x7_1_0_0_1_n_n = DotDims.plain 30000 128 7 := rfl

/-- A plain product accumulated into zeros, read at (a, b): the sum over the contracted coordinate c of
    A[a, c] · B[c, b]. Both the accumulating product and the plain one are the same sum over the contraction's
    index set, and the plain one is the sum over the coordinate. -/
theorem matmul_zero_apply4 {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec .single A B (ix2 a b)).symm.trans
      (StackMember.dotGeneral_plain_apply prec A B a b))

/-- What a point stores, at (p, q): the sum over k of x[p, k] · w[k, q], plus the row at q. -/
theorem blockEntry4 (x : Vec Ideal S600x128 .f32) (w : Vec Ideal S128x7 .f32) (b : Vec Ideal S1x7 .f32)
    (p : Fin 600) (q : Fin 7) :
    (k4_pay1 (F := Ideal) x w b) (ix2 p q) = (∑ k : Fin 128, x (ix2 p k) * w (ix2 k q)) + b (ix2 (0 : Fin 1) q) := by
  unfold k4_pay1
  rw [blockDims4, shapeCast_self x shapeCasts_S600x128_S600x128]
  exact (addf_apply _ _ _).trans (congrArg₂ (· + ·)
    (matmul_zero_apply4 none (truncf .bf16 x bitsLt_bf16_f32) (truncf .bf16 w bitsLt_bf16_f32) p q)
    (Cert.LibKeepdims.row_broadcast_apply b shapeCasts_S1x7_S1x7 broadcasts_S1x7_S600x7 p q))

/-- The whole-array product with the row added, at (R, q): the same expression at row R. -/
theorem wholeEntry4 (X : Vec Ideal Cert.ReferenceIdeal.S30000x128 .f32) (W : Vec Ideal Cert.ReferenceIdeal.S128x7 .f32)
    (B : Vec Ideal Cert.ReferenceIdeal.S1x7 .f32) (R : Fin 30000) (q : Fin 7) :
    Cert.Stages.addRow7 (Cert.Stages.dense3 X W) B (ix2 R q)
      = (∑ k : Fin 128, X (ix2 R k) * W (ix2 k q)) + B (ix2 (0 : Fin 1) q) := by
  unfold Cert.Stages.addRow7 Cert.Stages.dense3
  rw [wholeDims4]
  refine (addf_apply _ _ _).trans (congrArg₂ (· + ·) (StackMember.dotGeneral_plain_apply none X W R q) ?_)
  refine broadcastInDim_apply _ _ B (ix2 R q) (ix2 (0 : Fin 1) q) fun a => ?_
  match a with
  | ⟨0, _⟩ => rfl
  | ⟨1, _⟩ => rfl

/-- A block's entry is the whole array's, when the block's row p is the array's row R and the block's operands are
    the arrays' entries there. -/
theorem entry4 (X : Vec Ideal Cert.ReferenceIdeal.S30000x128 .f32) (W : Vec Ideal Cert.ReferenceIdeal.S128x7 .f32)
    (B : Vec Ideal Cert.ReferenceIdeal.S1x7 .f32)
    (x : Vec Ideal S600x128 .f32) (w : Vec Ideal S128x7 .f32) (b : Vec Ideal S1x7 .f32)
    (R : Fin 30000) (p : Fin 600) (q : Fin 7)
    (hx : ∀ k : Fin 128, x (ix2 p k) = X (ix2 R k)) (hw : ∀ k : Fin 128, w (ix2 k q) = W (ix2 k q))
    (hb : b (ix2 (0 : Fin 1) q) = B (ix2 (0 : Fin 1) q)) :
    (k4_pay1 (F := Ideal) x w b) (ix2 p q) = Cert.Stages.addRow7 (Cert.Stages.dense3 X W) B (ix2 R q) := by
  rw [blockEntry4, wholeEntry4, hb]
  exact congrArg (· + B (ix2 (0 : Fin 1) q)) (Finset.sum_congr rfl fun k _ => by rw [hx k, hw k])

/-! ## From the blocks to the array -/

variable (V : (c : Dev nD) → (b : Ref sig .tc) → Buf (Elt Ideal) ((c : Thread nD τ).loc b))

theorem zeroOffsets4 : (![0, 0] : Fin 2 → Nat) = fun _ => 0 := funext fun a => by fin_cases a <;> rfl

/-- The index maps over the 50 points: the blocks of `h2` and of the result move down the rows with the point; the
    weights and the bias row stay. -/
theorem blockIndex4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point `t` writes back is block `t` of the whole-array function of the arrays as the region finds them. -/
theorem writeBack4 (c : Dev nD) (t : Fin cfg4.N) :
    (dat4 (F := Ideal) V c).flushed 3 t = ((cfg4.win 3).blk t).view.read (Elt Ideal)
      (Cert.Stages.addRow7 (Cert.Stages.dense3 (V c main_v35) (V c main_arg8)) (V c main_v36)) := by
  show (cfg4.win 3).cut (grid4.coords t) ((dat4 V c).after 3 t) = _
  rw [after4_3]
  unfold out4_3
  rw [View.canon_unit_zero zeroOffsets4]
  simp only [View.ld_unit_zero (S := S600x128) zeroOffsets4, View.ld_unit_zero (S := S128x7) zeroOffsets4,
    View.ld_unit_zero (S := S1x7) zeroOffsets4]
  obtain ⟨e00, e01, e10, e11, e20, e21, e30, e31⟩ := blockIndex4 t
  have ht : t.val < 50 := lt_of_lt_of_eq t.isLt N_4
  funext j
  obtain ⟨p, q, rfl⟩ : ∃ (p : Fin 600) (q : Fin 7), j = ix2 p q := ⟨j 0, j 1, eq_ix2 j⟩
  have hp : p.val < 600 := p.isLt
  show k4_pay1 (F := Ideal) (iblk4 V c 0 t) (iblk4 V c 1 t) (iblk4 V c 2 t) (ix2 p q)
    = Cert.Stages.addRow7 (Cert.Stages.dense3 (V c main_v35) (V c main_arg8)) (V c main_v36)
        (((cfg4.win 3).blk t).view.emb (ix2 p q))
  have he : ((cfg4.win 3).blk t).view.emb (ix2 p q) = ix2 (⟨600 * t.val + p.val, by omega⟩ : Fin 30000) q := by
    funext a; apply Fin.ext
    match a with
    | ⟨0, _⟩ => show win4_3.index t (0 : Fin 2) * 600 + 1 * p.val = 600 * t.val + p.val; omega
    | ⟨1, _⟩ => show win4_3.index t (1 : Fin 2) * 7 + 1 * q.val = q.val; omega
  refine Eq.trans ?_ (congrArg _ he.symm)
  refine entry4 _ _ _ _ _ _ _ p q (fun k => ?_) (fun k => ?_) ?_
  · show V c main_v35 (((cfg4.win 0).blk t).view.emb (ix2 p k)) = V c main_v35 _
    refine congrArg _ (funext fun a => Fin.ext ?_)
    match a with
    | ⟨0, _⟩ => show win4_0.index t (0 : Fin 2) * 600 + 1 * p.val = 600 * t.val + p.val; omega
    | ⟨1, _⟩ => show win4_0.index t (1 : Fin 2) * 128 + 1 * k.val = k.val; omega
  · show V c main_arg8 (((cfg4.win 1).blk t).view.emb (ix2 k q)) = V c main_arg8 _
    refine congrArg _ (funext fun a => Fin.ext ?_)
    match a with
    | ⟨0, _⟩ => show win4_1.index t (0 : Fin 2) * 128 + 1 * k.val = k.val; omega
    | ⟨1, _⟩ => show win4_1.index t (1 : Fin 2) * 7 + 1 * q.val = q.val; omega
  · show V c main_v36 (((cfg4.win 2).blk t).view.emb (ix2 (0 : Fin 1) q)) = V c main_v36 _
    refine congrArg _ (funext fun a => Fin.ext ?_)
    match a with
    | ⟨0, _⟩ => show win4_2.index t (0 : Fin 2) * 1 + 1 * 0 = 0; omega
    | ⟨1, _⟩ => show win4_2.index t (1 : Fin 2) * 7 + 1 * q.val = q.val; omega

/-- An index of the result array is in point `t`'s block iff each coordinate is in the block's range on its axis. -/
theorem inBlock4 (t : Fin cfg4.N) (i : S30000x7.Idx) :
    i ∈ ((cfg4.win 3).blk t).view.set ↔ ∀ a : Fin 2, win4_3.index t a * S600x7.size a ≤ (i a).val
      ∧ (i a).val < win4_3.index t a * S600x7.size a + S600x7.size a := by
  show i ∈ ((View.whole main_v37).slice (win4_3.rect t)).set ↔ _
  rw [View.set_slice_whole, Rect.mem_set_unit]
  exact Iff.rfl

/-- Every index of the result array is in some point's block: row R is in block R / 600. -/
theorem covered4 (i : S30000x7.Idx) :
    ∃ t : Fin cfg4.N, (cfg4.win 3).flush t = true ∧ i ∈ ((cfg4.win 3).blk t).view.set := by
  have hi0 : (i 0).val < 30000 := (i 0).isLt
  have hi1 : (i 1).val < 7 := (i 1).isLt
  have hN : cfg4.N = 50 := N_4
  have hlt : (i 0).val / 600 < cfg4.N := by rw [hN]; omega
  obtain ⟨e00, e01, e10, e11, e20, e21, e30, e31⟩ := blockIndex4 ⟨(i 0).val / 600, hlt⟩
  refine ⟨⟨(i 0).val / 600, hlt⟩, flush4_3 _, ?_⟩
  rw [inBlock4]
  intro a
  match a with
  | ⟨0, _⟩ =>
    show win4_3.index ⟨(i 0).val / 600, hlt⟩ (0 : Fin 2) * 600 ≤ (i 0).val
      ∧ (i 0).val < win4_3.index ⟨(i 0).val / 600, hlt⟩ (0 : Fin 2) * 600 + 600
    rw [e30]; show (i 0).val / 600 * 600 ≤ (i 0).val ∧ (i 0).val < (i 0).val / 600 * 600 + 600; omega
  | ⟨1, _⟩ =>
    show win4_3.index ⟨(i 0).val / 600, hlt⟩ (1 : Fin 2) * 7 ≤ (i 1).val
      ∧ (i 1).val < win4_3.index ⟨(i 0).val / 600, hlt⟩ (1 : Fin 2) * 7 + 7
    rw [e31]; omega

/-- After the region, the result array is the whole-array product with the bias row added, of the arrays as the
    region finds them. -/
theorem region4 (c : Dev nD) : (dat4 (F := Ideal) V c).arrAt 3 cfg4.N
    = Cert.Stages.addRow7 (Cert.Stages.dense3 (V c main_v35) (V c main_arg8)) (V c main_v36) :=
  (dat4 (F := Ideal) V c).arrAt_eq_of_cover 3 _ (fun t _ => writeBack4 V c t) covered4

end Cert.KernelIdeal.RegionValue

end
-- ==== Proof.KernelChain.lean ====
/-
  The idealized kernel's result array as the network of its ten arguments.

  @main is five kernel regions among five stretches of host operations; the generated frame names the buffer
  contents at the ten boundaries `W1 … W10` (after a stretch: the stretch's operations applied; after a region: its
  arrays at what its write-backs leave). Walking them in order: no stretch and no region writes an argument array,
  so each is read back to its launch contents wherever a later stage reads it; the first stretch makes the zero
  bias rows; a region's output array is its stage of the arrays it was entered with (the region lemmas); the second
  and fourth stretches are the sparse product `A · t` of the previous region's output, and reshape a bias vector to a
  row; the third and fifth only reshape. The zero rows drop out (`a + 0 = a`), a reshaped vector is a row, and the
  last region's output is `net` of the arguments.
-/
import proofs.«114317_j19756849561729_1_alg».proof.Proof.Gen.KernelIdeal.Frame
import proofs.«114317_j19756849561729_1_alg».proof.Proof.Stages
import proofs.«114317_j19756849561729_1_alg».proof.Proof.StageLaws
import proofs.«114317_j19756849561729_1_alg».proof.Proof.Region0
import proofs.«114317_j19756849561729_1_alg».proof.Proof.Region1
import proofs.«114317_j19756849561729_1_alg».proof.Proof.Region2
import proofs.«114317_j19756849561729_1_alg».proof.Proof.Region3
import proofs.«114317_j19756849561729_1_alg».proof.Proof.Region4
import Idealize.ShloMosaic.PureOps.Ideal
import Idealize.ShloMosaic.Lib.StableHlo.Run

set_option maxRecDepth 16384

noncomputable section

namespace Cert.KernelIdeal.Chain

open Idealize.ShloMosaic Idealize.ShloMosaic.TcCoe Idealize.SL.Sem
open Cert.KernelIdeal Cert.KernelIdeal.Gen

/-- A buffer no operation of a host stretch writes holds after the stretch what it held before. -/
local macro "skip_host" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg) (c : Dev nD)

open Cert.KernelIdeal.RegionValue

/-! ## The stages' values, named by the arguments -/

/-- `x · W1`. -/
abbrev t1 : Vec Ideal Cert.ReferenceIdeal.S30000x512 .f32 := Cert.Stages.dense1 (m ((c : Thread nD τ).loc main_arg0)) (m ((c : Thread nD τ).loc main_arg4))
/-- `A · (x · W1)`. -/
abbrev a1 : Vec Ideal Cert.ReferenceIdeal.S30000x512 .f32 := Cert.Stages.spmm512 (m ((c : Thread nD τ).loc main_arg1)) (m ((c : Thread nD τ).loc main_arg2)) (m ((c : Thread nD τ).loc main_arg3)) (t1 m c)
/-- The first layer's output. -/
abbrev h1 : Vec Ideal Cert.ReferenceIdeal.S30000x512 .f32 := Cert.Stages.act512 (a1 m c) (Cert.Stages.row512 (m ((c : Thread nD τ).loc main_arg5)))
/-- `h1 · W2`. -/
abbrev t2 : Vec Ideal Cert.ReferenceIdeal.S30000x128 .f32 := Cert.Stages.dense2 (h1 m c) (m ((c : Thread nD τ).loc main_arg6))
/-- `A · (h1 · W2)`. -/
abbrev a2 : Vec Ideal Cert.ReferenceIdeal.S30000x128 .f32 := Cert.Stages.spmm128 (m ((c : Thread nD τ).loc main_arg1)) (m ((c : Thread nD τ).loc main_arg2)) (m ((c : Thread nD τ).loc main_arg3)) (t2 m c)
/-- The second layer's output. -/
abbrev h2 : Vec Ideal Cert.ReferenceIdeal.S30000x128 .f32 := Cert.Stages.act128 (a2 m c) (Cert.Stages.row128 (m ((c : Thread nD τ).loc main_arg7)))

/-! ## The argument arrays, read back to launch where a stage reads them -/

theorem W1_arg0 : W1 m ρ c (Proc.devRef .tc main_arg0) = m ((c : Thread nD τ).loc main_arg0) :=
  calc W1 m ρ c (Proc.devRef .tc main_arg0)
    _ = W0 m ρ c (Proc.devRef .tc main_arg0) := by skip_host hostOps0
    _ = m ((c : Thread nD τ).loc main_arg0) := rfl
theorem W1_arg4 : W1 m ρ c (Proc.devRef .tc main_arg4) = m ((c : Thread nD τ).loc main_arg4) :=
  calc W1 m ρ c (Proc.devRef .tc main_arg4)
    _ = W0 m ρ c (Proc.devRef .tc main_arg4) := by skip_host hostOps0
    _ = m ((c : Thread nD τ).loc main_arg4) := rfl
theorem W2_arg1 : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := by skip_host hostOps0
    _ = m ((c : Thread nD τ).loc main_arg1) := rfl
theorem W2_arg2 : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := by skip_host hostOps0
    _ = m ((c : Thread nD τ).loc main_arg2) := rfl
theorem W2_arg3 : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := by skip_host hostOps0
    _ = m ((c : Thread nD τ).loc main_arg3) := rfl
theorem W2_arg5 : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := by skip_host hostOps0
    _ = m ((c : Thread nD τ).loc main_arg5) := rfl
theorem W5_arg6 : W5 m ρ c (Proc.devRef .tc main_arg6) = m ((c : Thread nD τ).loc main_arg6) :=
  calc W5 m ρ c (Proc.devRef .tc main_arg6)
    _ = W4 m ρ c (Proc.devRef .tc main_arg6) := by skip_host hostOps2
    _ = W3 m ρ c (Proc.devRef .tc main_arg6) := W4_of_ne m ρ c main_arg6 (by decide)
    _ = W2 m ρ c (Proc.devRef .tc main_arg6) := by skip_host hostOps1
    _ = W1 m ρ c (Proc.devRef .tc main_arg6) := W2_of_ne m ρ c main_arg6 (by decide)
    _ = W0 m ρ c (Proc.devRef .tc main_arg6) := by skip_host hostOps0
    _ = m ((c : Thread nD τ).loc main_arg6) := rfl
theorem W6_arg1 : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := by skip_host hostOps2
    _ = W3 m ρ c (Proc.devRef .tc main_arg1) := W4_of_ne m ρ c main_arg1 (by decide)
    _ = W2 m ρ c (Proc.devRef .tc main_arg1) := by skip_host hostOps1
    _ = W1 m ρ c (Proc.devRef .tc main_arg1) := W2_of_ne m ρ c main_arg1 (by decide)
    _ = W0 m ρ c (Proc.devRef .tc main_arg1) := by skip_host hostOps0
    _ = m ((c : Thread nD τ).loc main_arg1) := rfl
theorem W6_arg2 : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := by skip_host hostOps2
    _ = W3 m ρ c (Proc.devRef .tc main_arg2) := W4_of_ne m ρ c main_arg2 (by decide)
    _ = W2 m ρ c (Proc.devRef .tc main_arg2) := by skip_host hostOps1
    _ = W1 m ρ c (Proc.devRef .tc main_arg2) := W2_of_ne m ρ c main_arg2 (by decide)
    _ = W0 m ρ c (Proc.devRef .tc main_arg2) := by skip_host hostOps0
    _ = m ((c : Thread nD τ).loc main_arg2) := rfl
theorem W6_arg3 : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := by skip_host hostOps2
    _ = W3 m ρ c (Proc.devRef .tc main_arg3) := W4_of_ne m ρ c main_arg3 (by decide)
    _ = W2 m ρ c (Proc.devRef .tc main_arg3) := by skip_host hostOps1
    _ = W1 m ρ c (Proc.devRef .tc main_arg3) := W2_of_ne m ρ c main_arg3 (by decide)
    _ = W0 m ρ c (Proc.devRef .tc main_arg3) := by skip_host hostOps0
    _ = m ((c : Thread nD τ).loc main_arg3) := rfl
theorem W6_arg7 : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := by skip_host hostOps2
    _ = W3 m ρ c (Proc.devRef .tc main_arg7) := W4_of_ne m ρ c main_arg7 (by decide)
    _ = W2 m ρ c (Proc.devRef .tc main_arg7) := by skip_host hostOps1
    _ = W1 m ρ c (Proc.devRef .tc main_arg7) := W2_of_ne m ρ c main_arg7 (by decide)
    _ = W0 m ρ c (Proc.devRef .tc main_arg7) := by skip_host hostOps0
    _ = m ((c : Thread nD τ).loc main_arg7) := rfl
theorem W8_arg9 : W8 m ρ c (Proc.devRef .tc main_arg9) = m ((c : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := by skip_host hostOps3
    _ = W5 m ρ c (Proc.devRef .tc main_arg9) := W6_of_ne m ρ c main_arg9 (by decide)
    _ = W4 m ρ c (Proc.devRef .tc main_arg9) := by skip_host hostOps2
    _ = W3 m ρ c (Proc.devRef .tc main_arg9) := W4_of_ne m ρ c main_arg9 (by decide)
    _ = W2 m ρ c (Proc.devRef .tc main_arg9) := by skip_host hostOps1
    _ = W1 m ρ c (Proc.devRef .tc main_arg9) := W2_of_ne m ρ c main_arg9 (by decide)
    _ = W0 m ρ c (Proc.devRef .tc main_arg9) := by skip_host hostOps0
    _ = m ((c : Thread nD τ).loc main_arg9) := rfl
theorem W9_arg8 : W9 m ρ c (Proc.devRef .tc main_arg8) = m ((c : Thread nD τ).loc main_arg8) :=
  calc W9 m ρ c (Proc.devRef .tc main_arg8)
    _ = W8 m ρ c (Proc.devRef .tc main_arg8) := by skip_host hostOps4
    _ = W7 m ρ c (Proc.devRef .tc main_arg8) := W8_of_ne m ρ c main_arg8 (by decide)
    _ = W6 m ρ c (Proc.devRef .tc main_arg8) := by skip_host hostOps3
    _ = W5 m ρ c (Proc.devRef .tc main_arg8) := W6_of_ne m ρ c main_arg8 (by decide)
    _ = W4 m ρ c (Proc.devRef .tc main_arg8) := by skip_host hostOps2
    _ = W3 m ρ c (Proc.devRef .tc main_arg8) := W4_of_ne m ρ c main_arg8 (by decide)
    _ = W2 m ρ c (Proc.devRef .tc main_arg8) := by skip_host hostOps1
    _ = W1 m ρ c (Proc.devRef .tc main_arg8) := W2_of_ne m ρ c main_arg8 (by decide)
    _ = W0 m ρ c (Proc.devRef .tc main_arg8) := by skip_host hostOps0
    _ = m ((c : Thread nD τ).loc main_arg8) := rfl

/-! ## The zero bias rows of the first stretch -/

/-- The first region's bias row is zero everywhere. -/
theorem W1_v2_zero (i : S1x512.Idx) : W1 m ρ c (Proc.devRef .tc main_v2) i = (0 : EReal) := by
  have e : W1 m ρ c (Proc.devRef .tc main_v2)
      = shapeCast S1x512 (broadcastInDim S512 ![] Cert.KernelIdeal.Facts₀.bcast_S_S512 (constant (F := Ideal) S_ .f32 0x00000000#32))
          Cert.KernelIdeal.Facts₀.shapeCasts_S512_S1x512 := by
    show StableHlo.after hostOps0 (W0 m ρ c) (Proc.devRef .tc main_v2) = _
    dsimp only [hostOps0]
    after_results
    rfl
  rw [e]
  exact Cert.Stages.zeroRow512 _ _ i

/-- The zero vector of `128` the first stretch makes is still there when the third stretch reads it. -/
theorem W4_v1 : W4 m ρ c (Proc.devRef .tc main_v1)
    = broadcastInDim S128 ![] Cert.KernelIdeal.Facts₀.bcast_S_S128 (constant (F := Ideal) S_ .f32 0x00000000#32) := by
  have e : W1 m ρ c (Proc.devRef .tc main_v1)
      = broadcastInDim S128 ![] Cert.KernelIdeal.Facts₀.bcast_S_S128 (constant (F := Ideal) S_ .f32 0x00000000#32) := by
    show StableHlo.after hostOps0 (W0 m ρ c) (Proc.devRef .tc main_v1) = _
    dsimp only [hostOps0]
    after_results
  calc W4 m ρ c (Proc.devRef .tc main_v1)
    _ = W3 m ρ c (Proc.devRef .tc main_v1) := W4_of_ne m ρ c main_v1 (by decide)
    _ = W2 m ρ c (Proc.devRef .tc main_v1) := by skip_host hostOps1
    _ = W1 m ρ c (Proc.devRef .tc main_v1) := W2_of_ne m ρ c main_v1 (by decide)
    _ = _ := e

/-- The third region's bias row is zero everywhere. -/
theorem W5_v19_zero (i : S1x128.Idx) : W5 m ρ c (Proc.devRef .tc main_v19) i = (0 : EReal) := by
  have e : W5 m ρ c (Proc.devRef .tc main_v19)
      = shapeCast S1x128 (W4 m ρ c (Proc.devRef .tc main_v1)) Cert.KernelIdeal.Facts₀.shapeCasts_S128_S1x128 := by
    show StableHlo.after hostOps2 (W4 m ρ c) (Proc.devRef .tc main_v19) = _
    dsimp only [hostOps2]
    after_results
    rfl
  rw [e, W4_v1]
  exact Cert.Stages.zeroRow128 _ _ i

/-! ## The boundaries in order -/

/-- Region 0 leaves `x · W1`. -/
theorem W2_v3 : W2 m ρ c (Proc.devRef .tc main_v3) = t1 m c := by
  rw [show W2 m ρ c (Proc.devRef .tc main_v3) = (dat0 (V1 m ρ) c).arrAt 3 cfg0.N from W2_arr m ρ c 3, region0 (V1 m ρ) c]
  show Cert.Stages.addRow512 (Cert.Stages.dense1 (W1 m ρ c (Proc.devRef .tc main_arg0)) (W1 m ρ c (Proc.devRef .tc main_arg4)))
    (W1 m ρ c (Proc.devRef .tc main_v2)) = _
  rw [W1_arg0, W1_arg4]
  exact Cert.Stages.addRow512_zero _ _ (W1_v2_zero m ρ c)

set_option maxHeartbeats 1000000 in
/-- The second stretch leaves the sparse product of region 0's output … -/
theorem W3_v16 : W3 m ρ c (Proc.devRef .tc main_v16) = a1 m c := by
  have e : W3 m ρ c (Proc.devRef .tc main_v16)
      = Cert.Stages.spmm512 (W2 m ρ c (Proc.devRef .tc main_arg1)) (W2 m ρ c (Proc.devRef .tc main_arg2))
          (W2 m ρ c (Proc.devRef .tc main_arg3)) (W2 m ρ c (Proc.devRef .tc main_v3)) := by
    show StableHlo.after hostOps1 (W2 m ρ c) (Proc.devRef .tc main_v16) = _
    dsimp only [hostOps1]
    after_results_simp
    rfl
  rw [e, W2_arg1, W2_arg2, W2_arg3, W2_v3 m ρ c]

/-- … and the first bias as a row. -/
theorem W3_v17 : W3 m ρ c (Proc.devRef .tc main_v17) = Cert.Stages.row512 (m ((c : Thread nD τ).loc main_arg5)) := by
  have e : W3 m ρ c (Proc.devRef .tc main_v17)
      = shapeCast S1x512 (W2 m ρ c (Proc.devRef .tc main_arg5)) Cert.KernelIdeal.Facts₀.shapeCasts_S512_S1x512 := by
    show StableHlo.after hostOps1 (W2 m ρ c) (Proc.devRef .tc main_v17) = _
    dsimp only [hostOps1]
    after_results
    rfl
  rw [e, W2_arg5]
  exact Cert.Stages.row512_eq _ _

/-- Region 1 leaves the first layer's output. -/
theorem W4_v18 : W4 m ρ c (Proc.devRef .tc main_v18) = h1 m c := by
  rw [show W4 m ρ c (Proc.devRef .tc main_v18) = (dat1 (V3 m ρ) c).arrAt 2 cfg1.N from W4_arr m ρ c 2, region1 (V3 m ρ) c]
  show Cert.Stages.act512 (W3 m ρ c (Proc.devRef .tc main_v16)) (W3 m ρ c (Proc.devRef .tc main_v17)) = _
  rw [W3_v16 m ρ c, W3_v17]

/-- The third stretch does not touch it. -/
theorem W5_v18 : W5 m ρ c (Proc.devRef .tc main_v18) = h1 m c :=
  (by skip_host hostOps2 : W5 m ρ c (Proc.devRef .tc main_v18) = W4 m ρ c (Proc.devRef .tc main_v18)).trans (W4_v18 m ρ c)

/-- Region 2 leaves `h1 · W2`. -/
theorem W6_v20 : W6 m ρ c (Proc.devRef .tc main_v20) = t2 m c := by
  rw [show W6 m ρ c (Proc.devRef .tc main_v20) = (dat2 (V5 m ρ) c).arrAt 3 cfg2.N from W6_arr m ρ c 3, region2 (V5 m ρ) c]
  show Cert.Stages.addRow128 (Cert.Stages.dense2 (W5 m ρ c (Proc.devRef .tc main_v18)) (W5 m ρ c (Proc.devRef .tc main_arg6)))
    (W5 m ρ c (Proc.devRef .tc main_v19)) = _
  rw [W5_v18 m ρ c, W5_arg6]
  exact Cert.Stages.addRow128_zero _ _ (W5_v19_zero m ρ c)

set_option maxHeartbeats 1000000 in
/-- The fourth stretch leaves the sparse product of region 2's output … -/
theorem W7_v33 : W7 m ρ c (Proc.devRef .tc main_v33) = a2 m c := by
  have e : W7 m ρ c (Proc.devRef .tc main_v33)
      = Cert.Stages.spmm128 (W6 m ρ c (Proc.devRef .tc main_arg1)) (W6 m ρ c (Proc.devRef .tc main_arg2))
          (W6 m ρ c (Proc.devRef .tc main_arg3)) (W6 m ρ c (Proc.devRef .tc main_v20)) := by
    show StableHlo.after hostOps3 (W6 m ρ c) (Proc.devRef .tc main_v33) = _
    dsimp only [hostOps3]
    after_results_simp
    rfl
  rw [e, W6_arg1, W6_arg2, W6_arg3, W6_v20 m ρ c]

/-- … and the second bias as a row. -/
theorem W7_v34 : W7 m ρ c (Proc.devRef .tc main_v34) = Cert.Stages.row128 (m ((c : Thread nD τ).loc main_arg7)) := by
  have e : W7 m ρ c (Proc.devRef .tc main_v34)
      = shapeCast S1x128 (W6 m ρ c (Proc.devRef .tc main_arg7)) Cert.KernelIdeal.Facts₀.shapeCasts_S128_S1x128 := by
    show StableHlo.after hostOps3 (W6 m ρ c) (Proc.devRef .tc main_v34) = _
    dsimp only [hostOps3]
    after_results
    rfl
  rw [e, W6_arg7]
  exact Cert.Stages.row128_eq _ _

/-- Region 3 leaves the second layer's output. -/
theorem W8_v35 : W8 m ρ c (Proc.devRef .tc main_v35) = h2 m c := by
  rw [show W8 m ρ c (Proc.devRef .tc main_v35) = (dat3 (V7 m ρ) c).arrAt 2 cfg3.N from W8_arr m ρ c 2, region3 (V7 m ρ) c]
  show Cert.Stages.act128 (W7 m ρ c (Proc.devRef .tc main_v33)) (W7 m ρ c (Proc.devRef .tc main_v34)) = _
  rw [W7_v33 m ρ c, W7_v34]

/-- The fifth stretch does not touch it, and makes the head's bias a row. -/
theorem W9_v35 : W9 m ρ c (Proc.devRef .tc main_v35) = h2 m c :=
  (by skip_host hostOps4 : W9 m ρ c (Proc.devRef .tc main_v35) = W8 m ρ c (Proc.devRef .tc main_v35)).trans
    (W8_v35 m ρ c)

theorem W9_v36 : W9 m ρ c (Proc.devRef .tc main_v36) = Cert.Stages.row7 (m ((c : Thread nD τ).loc main_arg9)) := by
  have e : W9 m ρ c (Proc.devRef .tc main_v36)
      = shapeCast S1x7 (W8 m ρ c (Proc.devRef .tc main_arg9)) Cert.KernelIdeal.Facts₀.shapeCasts_S7_S1x7 := by
    show StableHlo.after hostOps4 (W8 m ρ c) (Proc.devRef .tc main_v36) = _
    dsimp only [hostOps4]
    after_results
    rfl
  rw [e, W8_arg9]
  exact Cert.Stages.row7_eq _ _

/-- THE RESULT: region 4 leaves the network of the ten arguments in the result array. -/
theorem result_eq : W10 m ρ c (Proc.devRef .tc main_v37)
    = Cert.Stages.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [show W10 m ρ c (Proc.devRef .tc main_v37) = (dat4 (V9 m ρ) c).arrAt 3 cfg4.N from W10_arr m ρ c 3, region4 (V9 m ρ) c]
  show Cert.Stages.addRow7 (Cert.Stages.dense3 (W9 m ρ c (Proc.devRef .tc main_v35)) (W9 m ρ c (Proc.devRef .tc main_arg8)))
    (W9 m ρ c (Proc.devRef .tc main_v36)) = _
  rw [W9_v35 m ρ c, W9_arg8, W9_v36]
  rfl

end Cert.KernelIdeal.Chain

end
-- ==== Proof.RefRun.lean ====
/-
  The reference program's run, read back as the network of the stages.

  @main is a straight line of sixty host operations once its two calls of the leaky rectifier (each six operations and
  a nested call of the selection, one operation) are unfolded at their sites over the calls' own buffers. Every weakly
  fair execution therefore terminates with each buffer at the fold of the operations' results over the launch contents;
  at the result buffer that fold is, term for term,
    out = lrelu (A · (lrelu (A · (x · W1) + b1) · W2) + b2) · Wl + bl
  as the stages spell it, and at an argument buffer, which no operation writes, it is what the launch put there.
-/
import proofs.«114317_j19756849561729_1_alg».proof.Proof.Gen.ReferenceIdeal
import proofs.«114317_j19756849561729_1_alg».proof.Proof.Stages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's sixty operations in order, the calls unfolded: a leaky rectifier of `v` with slope `s` is seven — the
    scalar zero, its broadcast, the comparison `v ≥ 0`, the slope converted to its own type, its broadcast, the product
    `s · v`, and the selection between `v` and `s · v` — run into the buffers of the call's record, the selection's
    result being the call's. -/
abbrev ops : List (HloOp τ sig (Elt F)) :=
  [ -- t1 = x · W1
    StableHlo.binary main_arg0 main_arg4 main_v0 ((fun l r => Host.dotGeneral dot_S30000x1433_S1433x512_S30000x512_1_0_0_1_n_n none l r) : (⟨S30000x1433, .f32⟩ : BufTy).Contents (Elt F) → (⟨S1433x512, .f32⟩ : BufTy).Contents (Elt F) → (⟨S30000x512, .f32⟩ : BufTy).Contents (Elt F)),
    -- A · t1: the edge weights as a column; the source indices, a negative one counted from the end, as a column;
    -- the rows gathered, scaled, and summed by destination into a zero array
    StableHlo.unary main_arg3 main_v1 (broadcastInDim S480000x1 ![0] bcast_S480000_S480000x1_0 : (⟨S480000, .f32⟩ : BufTy).Contents (Elt F) → (⟨S480000x1, .f32⟩ : BufTy).Contents (Elt F)),
    StableHlo.nullary main_c (constantI S_ 32 0#32),
    StableHlo.unary main_c main_v2 (broadcastInDim S480000 ![] bcast_S_S480000 : (⟨S_, .i32⟩ : BufTy).Contents (Elt F) → (⟨S480000, .i32⟩ : BufTy).Contents (Elt F)),
    StableHlo.binary main_arg1 main_v2 main_v3 (cmpi .slt : (⟨S480000, .i32⟩ : BufTy).Contents (Elt F) → (⟨S480000, .i32⟩ : BufTy).Contents (Elt F) → (⟨S480000, .i1⟩ : BufTy).Contents (Elt F)),
    StableHlo.nullary main_c_0 (constantI S_ 32 30000#32),
    StableHlo.unary main_c_0 main_v4 (broadcastInDim S480000 ![] bcast_S_S480000 : (⟨S_, .i32⟩ : BufTy).Contents (Elt F) → (⟨S480000, .i32⟩ : BufTy).Contents (Elt F)),
    StableHlo.binary main_arg1 main_v4 main_v5 (addi : (⟨S480000, .i32⟩ : BufTy).Contents (Elt F) → (⟨S480000, .i32⟩ : BufTy).Contents (Elt F) → (⟨S480000, .i32⟩ : BufTy).Contents (Elt F)),
    StableHlo.ternary main_v3 main_v5 main_arg1 main_v6 (select : (⟨S480000, .i1⟩ : BufTy).Contents (Elt F) → (⟨S480000, .i32⟩ : BufTy).Contents (Elt F) → (⟨S480000, .i32⟩ : BufTy).Contents (Elt F) → (⟨S480000, .i32⟩ : BufTy).Contents (Elt F)),
    StableHlo.unary main_v6 main_v7 (broadcastInDim S480000x1 ![0] bcast_S480000_S480000x1_0 : (⟨S480000, .i32⟩ : BufTy).Contents (Elt F) → (⟨S480000x1, .i32⟩ : BufTy).Contents (Elt F)),
    StableHlo.binary main_v0 main_v7 main_v8 ((fun x i => Host.gather gather_S30000x512_S480000x1_S480000x512_1_0_n_n_0_1_1512 x i) : (⟨S30000x512, .f32⟩ : BufTy).Contents (Elt F) → (⟨S480000x1, .i32⟩ : BufTy).Contents (Elt F) → (⟨S480000x512, .f32⟩ : BufTy).Contents (Elt F)),
    StableHlo.unary main_v1 main_v9 (broadcastInDim S480000x512 ![0, 1] bcast_S480000x1_S480000x512_0_1 : (⟨S480000x1, .f32⟩ : BufTy).Contents (Elt F) → (⟨S480000x512, .f32⟩ : BufTy).Contents (Elt F)),
    StableHlo.binary main_v9 main_v8 main_v10 (mulf : (⟨S480000x512, .f32⟩ : BufTy).Contents (Elt F) → (⟨S480000x512, .f32⟩ : BufTy).Contents (Elt F) → (⟨S480000x512, .f32⟩ : BufTy).Contents (Elt F)),
    StableHlo.nullary main_cst (constant S_ .f32 0x00000000#32),
    StableHlo.unary main_cst main_v11 (broadcastInDim S30000x512 ![] bcast_S_S30000x512 : (⟨S_, .f32⟩ : BufTy).Contents (Elt F) → (⟨S30000x512, .f32⟩ : BufTy).Contents (Elt F)),
    StableHlo.unary main_arg2 main_v12 (broadcastInDim S480000x1 ![0] bcast_S480000_S480000x1_0 : (⟨S480000, .i32⟩ : BufTy).Contents (Elt F) → (⟨S480000x1, .i32⟩ : BufTy).Contents (Elt F)),
    StableHlo.ternary main_v11 main_v12 main_v10 main_v13 ((fun x i u => Host.scatterAdd scatter_S30000x512_S480000x1_S480000x512_1_0_0_1 x i u) : (⟨S30000x512, .f32⟩ : BufTy).Contents (Elt F) → (⟨S480000x1, .i32⟩ : BufTy).Contents (Elt F) → (⟨S480000x512, .f32⟩ : BufTy).Contents (Elt F) → (⟨S30000x512, .f32⟩ : BufTy).Contents (Elt F)),
    -- a1 + b1, the bias a row repeated over the rows
    StableHlo.unary main_arg5 main_v14 (broadcastInDim S1x512 ![1] bcast_S512_S1x512_1 : (⟨S512, .f32⟩ : BufTy).Contents (Elt F) → (⟨S1x512, .f32⟩ : BufTy).Contents (Elt F)),
    StableHlo.unary main_v14 main_v15 (broadcastInDim S30000x512 ![0, 1] bcast_S1x512_S30000x512_0_1 : (⟨S1x512, .f32⟩ : BufTy).Contents (Elt F) → (⟨S30000x512, .f32⟩ : BufTy).Contents (Elt F)),
    StableHlo.binary main_v13 main_v15 main_v16 (addf : (⟨S30000x512, .f32⟩ : BufTy).Contents (Elt F) → (⟨S30000x512, .f32⟩ : BufTy).Contents (Elt F) → (⟨S30000x512, .f32⟩ : BufTy).Contents (Elt F)),
    -- h1 = lrelu (a1 + b1): the slope, the comparison with zero, the scaled copy, the choice between the two
    StableHlo.nullary main_cst_1 (constant S_ .f32 0x3DCCCCCD#32),
    TRef.nullary main_call0.cst (constant S_ .f32 0x00000000#32),
    TRef.unary main_call0.cst main_call0.v0 (broadcastInDim S30000x512 ![] bcast_S_S30000x512),
    TRef.binary (.of main_v16) main_call0.v0 main_call0.v1 (cmpf .oge),
    TRef.unary (.of main_cst_1) main_call0.v2 id,
    TRef.unary main_call0.v2 main_call0.v3 (broadcastInDim S30000x512 ![] bcast_S_S30000x512),
    TRef.binary main_call0.v3 (.of main_v16) main_call0.v4 mulf,
    TRef.ternary main_call0.v1 (.of main_v16) main_call0.v4 main_call0.call0.v0 select,
    -- t2 = h1 · W2
    StableHlo.binary main_v17 main_arg6 main_v18 ((fun l r => Host.dotGeneral dot_S30000x512_S512x128_S30000x128_1_0_0_1_n_n none l r) : (⟨S30000x512, .f32⟩ : BufTy).Contents (Elt F) → (⟨S512x128, .f32⟩ : BufTy).Contents (Elt F) → (⟨S30000x128, .f32⟩ : BufTy).Contents (Elt F)),
    -- A · t2, as above at width 128
    StableHlo.unary main_arg3 main_v19 (broadcastInDim S480000x1 ![0] bcast_S480000_S480000x1_0 : (⟨S480000, .f32⟩ : BufTy).Contents (Elt F) → (⟨S480000x1, .f32⟩ : BufTy).Contents (Elt F)),
    StableHlo.nullary main_c_2 (constantI S_ 32 0#32),
    StableHlo.unary main_c_2 main_v20 (broadcastInDim S480000 ![] bcast_S_S480000 : (⟨S_, .i32⟩ : BufTy).Contents (Elt F) → (⟨S480000, .i32⟩ : BufTy).Contents (Elt F)),
    StableHlo.binary main_arg1 main_v20 main_v21 (cmpi .slt : (⟨S480000, .i32⟩ : BufTy).Contents (Elt F) → (⟨S480000, .i32⟩ : BufTy).Contents (Elt F) → (⟨S480000, .i1⟩ : BufTy).Contents (Elt F)),
    StableHlo.nullary main_c_3 (constantI S_ 32 30000#32),
    StableHlo.unary main_c_3 main_v22 (broadcastInDim S480000 ![] bcast_S_S480000 : (⟨S_, .i32⟩ : BufTy).Contents (Elt F) → (⟨S480000, .i32⟩ : BufTy).Contents (Elt F)),
    StableHlo.binary main_arg1 main_v22 main_v23 (addi : (⟨S480000, .i32⟩ : BufTy).Contents (Elt F) → (⟨S480000, .i32⟩ : BufTy).Contents (Elt F) → (⟨S480000, .i32⟩ : BufTy).Contents (Elt F)),
    StableHlo.ternary main_v21 main_v23 main_arg1 main_v24 (select : (⟨S480000, .i1⟩ : BufTy).Contents (Elt F) → (⟨S480000, .i32⟩ : BufTy).Contents (Elt F) → (⟨S480000, .i32⟩ : BufTy).Contents (Elt F) → (⟨S480000, .i32⟩ : BufTy).Contents (Elt F)),
    StableHlo.unary main_v24 main_v25 (broadcastInDim S480000x1 ![0] bcast_S480000_S480000x1_0 : (⟨S480000, .i32⟩ : BufTy).Contents (Elt F) → (⟨S480000x1, .i32⟩ : BufTy).Contents (Elt F)),
    StableHlo.binary main_v18 main_v25 main_v26 ((fun x i => Host.gather gather_S30000x128_S480000x1_S480000x128_1_0_n_n_0_1_1128 x i) : (⟨S30000x128, .f32⟩ : BufTy).Contents (Elt F) → (⟨S480000x1, .i32⟩ : BufTy).Contents (Elt F) → (⟨S480000x128, .f32⟩ : BufTy).Contents (Elt F)),
    StableHlo.unary main_v19 main_v27 (broadcastInDim S480000x128 ![0, 1] bcast_S480000x1_S480000x128_0_1 : (⟨S480000x1, .f32⟩ : BufTy).Contents (Elt F) → (⟨S480000x128, .f32⟩ : BufTy).Contents (Elt F)),
    StableHlo.binary main_v27 main_v26 main_v28 (mulf : (⟨S480000x128, .f32⟩ : BufTy).Contents (Elt F) → (⟨S480000x128, .f32⟩ : BufTy).Contents (Elt F) → (⟨S480000x128, .f32⟩ : BufTy).Contents (Elt F)),
    StableHlo.nullary main_cst_4 (constant S_ .f32 0x00000000#32),
    StableHlo.unary main_cst_4 main_v29 (broadcastInDim S30000x128 ![] bcast_S_S30000x128 : (⟨S_, .f32⟩ : BufTy).Contents (Elt F) → (⟨S30000x128, .f32⟩ : BufTy).Contents (Elt F)),
    StableHlo.unary main_arg2 main_v30 (broadcastInDim S480000x1 ![0] bcast_S480000_S480000x1_0 : (⟨S480000, .i32⟩ : BufTy).Contents (Elt F) → (⟨S480000x1, .i32⟩ : BufTy).Contents (Elt F)),
    StableHlo.ternary main_v29 main_v30 main_v28 main_v31 ((fun x i u => Host.scatterAdd scatter_S30000x128_S480000x1_S480000x128_1_0_0_1 x i u) : (⟨S30000x128, .f32⟩ : BufTy).Contents (Elt F) → (⟨S480000x1, .i32⟩ : BufTy).Contents (Elt F) → (⟨S480000x128, .f32⟩ : BufTy).Contents (Elt F) → (⟨S30000x128, .f32⟩ : BufTy).Contents (Elt F)),
    -- a2 + b2
    StableHlo.unary main_arg7 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S30000x128 ![0, 1] bcast_S1x128_S30000x128_0_1 : (⟨S1x128, .f32⟩ : BufTy).Contents (Elt F) → (⟨S30000x128, .f32⟩ : BufTy).Contents (Elt F)),
    StableHlo.binary main_v31 main_v33 main_v34 (addf : (⟨S30000x128, .f32⟩ : BufTy).Contents (Elt F) → (⟨S30000x128, .f32⟩ : BufTy).Contents (Elt F) → (⟨S30000x128, .f32⟩ : BufTy).Contents (Elt F)),
    -- h2 = lrelu (a2 + b2)
    StableHlo.nullary main_cst_5 (constant S_ .f32 0x3DCCCCCD#32),
    TRef.nullary main_call1.cst (constant S_ .f32 0x00000000#32),
    TRef.unary main_call1.cst main_call1.v0 (broadcastInDim S30000x128 ![] bcast_S_S30000x128),
    TRef.binary (.of main_v34) main_call1.v0 main_call1.v1 (cmpf .oge),
    TRef.unary (.of main_cst_5) main_call1.v2 id,
    TRef.unary main_call1.v2 main_call1.v3 (broadcastInDim S30000x128 ![] bcast_S_S30000x128),
    TRef.binary main_call1.v3 (.of main_v34) main_call1.v4 mulf,
    TRef.ternary main_call1.v1 (.of main_v34) main_call1.v4 main_call1.call0.v0 select,
    -- out = h2 · Wl + bl
    StableHlo.binary main_v35 main_arg8 main_v36 ((fun l r => Host.dotGeneral dot_S30000x128_S128x7_S30000x7_1_0_0_1_n_n none l r) : (⟨S30000x128, .f32⟩ : BufTy).Contents (Elt F) → (⟨S128x7, .f32⟩ : BufTy).Contents (Elt F) → (⟨S30000x7, .f32⟩ : BufTy).Contents (Elt F)),
    StableHlo.unary main_arg9 main_v37 (broadcastInDim S1x7 ![1] bcast_S7_S1x7_1 : (⟨S7, .f32⟩ : BufTy).Contents (Elt F) → (⟨S1x7, .f32⟩ : BufTy).Contents (Elt F)),
    StableHlo.unary main_v37 main_v38 (broadcastInDim S30000x7 ![0, 1] bcast_S1x7_S30000x7_0_1 : (⟨S1x7, .f32⟩ : BufTy).Contents (Elt F) → (⟨S30000x7, .f32⟩ : BufTy).Contents (Elt F)),
    StableHlo.binary main_v36 main_v38 main_v39 (addf : (⟨S30000x7, .f32⟩ : BufTy).Contents (Elt F) → (⟨S30000x7, .f32⟩ : BufTy).Contents (Elt F) → (⟨S30000x7, .f32⟩ : BufTy).Contents (Elt F)) ]

set_option maxRecDepth 2048 in
/-- @main is that straight line: the functions' definitions unfolded at their calls and the records at their fields,
    both sides are one chain of steps once sequencing is re-associated. -/
theorem main_eq (c : Dev nD) : main (F := F) c = seq ops := by
  simp only [main, fn_leaky_relu.body, fn_where.body, fn_leaky_relu_0.body, fn_where_1.body, seq, bind_assoc, pure_bind]

attribute [local irreducible] Host.gather Host.scatterAdd in
set_option maxRecDepth 8192 in
/-- The fold at the result buffer is the network of the argument buffers' contents: the fold unrolled and each
    operation's result read at the buffer it writes (and passed over at any other), what is left is the operations'
    composed term over the arguments' contents, which is the stages' own term once their definitions are opened — the
    typed references' transports are the identity at these literal references. The gather and the scatter-add stay
    folded meanwhile: the equation never looks inside them (the dense product is a field of the float instance, which
    nothing here opens). -/
theorem out_eq (V : Valuation τ sig (Elt F)) :
    after ops V (main_v39 : DevRef τ sig)
      = Cert.Stages.net (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  after_results_simp
  rfl

/-! No operation writes an argument's buffer: the fold there is the launch's contents. -/

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem arg6_eq (V : Valuation τ sig (Elt F)) :
    after ops V (main_arg6 : DevRef τ sig) = V (main_arg6 : DevRef τ sig) := by
  simp only [after_cons, after_nil]
  rfl

theorem arg7_eq (V : Valuation τ sig (Elt F)) :
    after ops V (main_arg7 : DevRef τ sig) = V (main_arg7 : DevRef τ sig) := by
  simp only [after_cons, after_nil]
  rfl

theorem arg8_eq (V : Valuation τ sig (Elt F)) :
    after ops V (main_arg8 : DevRef τ sig) = V (main_arg8 : DevRef τ sig) := by
  simp only [after_cons, after_nil]
  rfl

theorem arg9_eq (V : Valuation τ sig (Elt F)) :
    after ops V (main_arg9 : DevRef τ sig) = V (main_arg9 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., unary_bufs_sub .., unary_bufs_sub .., binary_bufs_sub ..⟩

/-- On the one device, for any float values, from any memory with zero counters: every weakly fair execution of @main
    terminates with the result buffer at the network of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39) = Cert.Stages.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v39).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ)

end Cert.ReferenceIdeal.RefRun

end
-- ==== Proof.lean ====
/-
  The certificate of a two-layer graph convolution with a linear head, kernel against reference, over the
  extended reals.

  Both programs compute
      out = lrelu (A · (lrelu (A · (x · W1) + b1) · W2) + b2) · Wl + bl,
  where `A · t` is the sparse product by the edge list (row `d` of the result the sum over the edges into `d` of the
  edge's weight times the source row of `t`) and `lrelu v` is `v` where `v ≥ 0` and a tenth of it elsewhere.
  The reference is that formula in host operations. The kernel runs the three dense products and the two
  bias-and-rectifier steps as five pipelined regions of fifty row blocks each, and the two sparse products as the
  same host operations as the reference between them. Where the two differ:
    * a dense product in a region is taken block of 600 rows by block, each into a zero accumulator, from operands
      narrowed to half precision first — at the extended reals the narrowing is the identity and each block is the
      600 rows of the one whole product;
    * the first two dense regions add a bias row of zeros, and `a + 0 = a` on the extended reals;
    * the kernel's rectifier keeps `v` where `v > 0`, the reference's where `v ≥ 0`: at `v = 0` both give `0`.
  No step needs the inputs finite. The frames of the two kernel programs are the generated ones; the reference's
  frame is its run with the result dropped; nothing was rewritten by the idealization, so `preserves` is `True`.
-/
import proofs.«114317_j19756849561729_1_alg».proof.Defs
import proofs.«114317_j19756849561729_1_alg».proof.Proof.Gen.Kernel
import proofs.«114317_j19756849561729_1_alg».proof.Proof.Gen.Kernel.Frame
import proofs.«114317_j19756849561729_1_alg».proof.Proof.Gen.KernelIdeal
import proofs.«114317_j19756849561729_1_alg».proof.Proof.Gen.KernelIdeal.Frame
import proofs.«114317_j19756849561729_1_alg».proof.Proof.Gen.ReferenceIdeal
import proofs.«114317_j19756849561729_1_alg».proof.Proof.Gen.Pre_finite_inputs
import proofs.«114317_j19756849561729_1_alg».proof.Proof.KernelRun
import proofs.«114317_j19756849561729_1_alg».proof.Proof.KernelChain
import proofs.«114317_j19756849561729_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel runs and leaves its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- Both programs end with the network of the ten arguments in their result arrays: the kernel by its run and the
    walk through its boundaries, the reference by its run; the arguments agree. -/
theorem algebraic : Cert.algebraic_KernelIdeal_ReferenceIdeal := by
  intro m ρ m' ρ' _ hagree
  refine ⟨fun c => Cert.Stages.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Chain.result_eq m ρ c), (h c).2⟩)
      (Cert.KernelIdeal.Run.run (F := Ideal) m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, e8, e9⟩ := hagree c
    rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
